-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x81x96 : Shape := ⟨3, ![512, 81, 96]⟩
abbrev S81x20 : Shape := ⟨2, ![81, 20]⟩
abbrev S192x96 : Shape := ⟨2, ![192, 96]⟩
abbrev S96 : Shape := ⟨1, ![96]⟩
abbrev S96x96 : Shape := ⟨2, ![96, 96]⟩
abbrev S_ : Shape := ⟨0, ![]⟩

class Facts : Prop where
  bcast_S_S512x81x96 : S_.BroadcastsInDim S512x81x96 (![] : Fin 0 → Fin S512x81x96.rank)
  reducesTo_S512x81x96_S_d0_1_2 : S512x81x96.ReducesTo [0, 1, 2] S_
  h_S_ : 0 < S_.numel
  bcast_S_S192x96 : S_.BroadcastsInDim S192x96 (![] : Fin 0 → Fin S192x96.rank)
  reducesTo_S192x96_S_d0_1 : S192x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S81x20 : S_.BroadcastsInDim S81x20 (![] : Fin 0 → Fin S81x20.rank)
  reducesTo_S81x20_S_d0_1 : S81x20.ReducesTo [0, 1] S_

variable [Facts]

def fn_part1 {F : FTy → Type} [FloatOps F] (main_arg1 : IVec S81x20 32) (main_arg5 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_c_8 : IVec S_ 32 := constantI S_ 32 0#32
  let main_v24 : IVec S81x20 32 := broadcastInDim S81x20 ![] bcast_S_S81x20 main_c_8
  let main_v25 : IVec S81x20 1 := cmpi .sge main_arg1 main_v24
  let main_c_9 : IVec S_ 32 := constantI S_ 32 81#32
  let main_v26 : IVec S81x20 32 := broadcastInDim S81x20 ![] bcast_S_S81x20 main_c_9
  let main_v27 : IVec S81x20 1 := cmpi .slt main_arg1 main_v26
  let main_v28 : IVec S81x20 1 := andi main_v25 main_v27
  let main_c_10 : IVec S_ 1 := constantI S_ 1 1#1
  let main_v29 : IVec S_ 1 := (fun x v => Host.reduce IntOp.andi x v reducesTo_S81x20_S_d0_1 h_S_) main_v28 main_c_10
  let main_v30 : IVec S_ 1 := andi main_v23 main_v29
  main_v30

def fn {F : FTy → Type} [FloatOps F] (main_arg0 : FVec F S512x81x96 .f32) (main_arg1 : IVec S81x20 32) (main_arg2 : FVec F S192x96 .f32) (main_arg3 : FVec F S96 .f32) (main_arg4 : FVec F S96x96 .f32) (main_arg5 : FVec F S96 .f32) : IVec S_ 1 :=
  let main_v0 : FVec F S512x81x96 .f32 := Host.absf main_arg0
  let main_cst : FVec F S_ .f32 := constant S_ .f32 0x7F800000#32
  let main_v1 : FVec F S512x81x96 .f32 := broadcastInDim S512x81x96 ![] bcast_S_S512x81x96 main_cst
  let main_v2 : IVec S512x81x96 1 := cmpf .olt main_v0 main_v1
  let main_c : IVec S_ 1 := constantI S_ 1 1#1
  let main_v3 : IVec S_ 1 := (fun x v => Host.reduce IntOp.andi x v reducesTo_S512x81x96_S_d0_1_2 h_S_) main_v2 main_c
  let main_v4 : FVec F S192x96 .f32 := Host.absf main_arg2
  let main_cst_0 : FVec F S_ .f32 := constant S_ .f32 0x7F800000#32
  let main_v5 : FVec F S192x96 .f32 := broadcastInDim S192x96 ![] bcast_S_S192x96 main_cst_0
  let main_v6 : IVec S192x96 1 := cmpf .olt main_v4 main_v5
  let main_c_1 : IVec S_ 1 := constantI S_ 1 1#1
  let main_v7 : IVec S_ 1 := (fun x v => Host.reduce IntOp.andi x v reducesTo_S192x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg1 main_arg5 main_v13 main_v16
-- ==== Kernel.lean ====
abbrev S512x81x96 : Shape := ⟨3, ![512, 81, 96]⟩
abbrev S81x20 : Shape := ⟨2, ![81, 20]⟩
abbrev S192x96 : Shape := ⟨2, ![192, 96]⟩
abbrev S96 : Shape := ⟨1, ![96]⟩
abbrev S96x96 : Shape := ⟨2, ![96, 96]⟩
abbrev S1x1x96 : Shape := ⟨3, ![1, 1, 96]⟩
abbrev S_ : Shape := ⟨0, ![]⟩
abbrev S20x81 : Shape := ⟨2, ![20, 81]⟩
abbrev S81 : Shape := ⟨1, ![81]⟩
abbrev S1x1x81 : Shape := ⟨3, ![1, 1, 81]⟩
abbrev S20x81x1 : Shape := ⟨3, ![20, 81, 1]⟩
abbrev S20x81x81 : Shape := ⟨3, ![20, 81, 81]⟩
abbrev S1620x81 : Shape := ⟨2, ![1620, 81]⟩
abbrev S32x81x96 : Shape := ⟨3, ![32, 81, 96]⟩
abbrev S81x32x96 : Shape := ⟨3, ![81, 32, 96]⟩
abbrev S2592x96 : Shape := ⟨2, ![2592, 96]⟩
abbrev S81x16x96 : Shape := ⟨3, ![81, 16, 96]⟩
abbrev S81x1536 : Shape := ⟨2, ![81, 1536]⟩
abbrev S1620x1536 : Shape := ⟨2, ![1620, 1536]⟩
abbrev S20x81x16x96 : Shape := ⟨4, ![20, 81, 16, 96]⟩
abbrev S1x81x16x96 : Shape := ⟨4, ![1, 81, 16, 96]⟩
abbrev S1296x96 : Shape := ⟨2, ![1296, 96]⟩
abbrev S16x81x96 : Shape := ⟨3, ![16, 81, 96]⟩

abbrev nBuf : Space → Nat
  | .hbm => 31
  | .vmem => 10
  | .smem => 0
  | _ => 0

abbrev bufTy : (tb : Table) → Fin (tcTables nBuf tb) → BufTy
  | .hbm, ⟨0, _⟩ => ⟨S512x81x96, .f32⟩
  | .hbm, ⟨1, _⟩ => ⟨S81x20, .i32⟩
  | .hbm, ⟨2, _⟩ => ⟨S192x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96x96, .bf16⟩
  | .hbm, ⟨8, _⟩ => ⟨S96x96, .f32⟩
  | .hbm, ⟨9, _⟩ => ⟨S96x96, .bf16⟩
  | .hbm, ⟨10, _⟩ => ⟨S96x96, .bf16⟩
  | .hbm, ⟨11, _⟩ => ⟨S1x1x96, .f32⟩
  | .hbm, ⟨12, _⟩ => ⟨S1x1x96, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S81x20, .i32⟩
  | .hbm, ⟨17, _⟩ => ⟨S81x20, .i32⟩
  | .hbm, ⟨18, _⟩ => ⟨S_, .i32⟩
  | .hbm, ⟨19, _⟩ => ⟨S81x20, .i32⟩
  | .hbm, ⟨20, _⟩ => ⟨S81x20, .i32⟩
  | .hbm, ⟨21, _⟩ => ⟨S20x81, .i32⟩
  | .hbm, ⟨22, _⟩ => ⟨S81, .i32⟩
  | .hbm, ⟨23, _⟩ => ⟨S1x1x81, .i32⟩
  | .hbm, ⟨24, _⟩ => ⟨S20x81x1, .i32⟩
  | .hbm, ⟨25, _⟩ => ⟨S20x81x81, .i32⟩
  | .hbm, ⟨26, _⟩ => ⟨S20x81x81, .i32⟩
  | .hbm, ⟨27, _⟩ => ⟨S20x81x81, .i1⟩
  | .hbm, ⟨28, _⟩ => ⟨S20x81x81, .bf16⟩
  | .hbm, ⟨29, _⟩ => ⟨S1620x81, .bf16⟩
  | .hbm, ⟨30, _⟩ => ⟨S512x81x96, .f32⟩
  | .local _ .vmem, ⟨0, _⟩ => ⟨S32x81x96, .f32⟩
  | .local _ .vmem, ⟨1, _⟩ => ⟨S32x81x96, .f32⟩
  | .local _ .vmem, ⟨2, _⟩ => ⟨S1620x81, .bf16⟩
  | .local _ .vmem, ⟨3, _⟩ => ⟨S96x96, .bf16⟩
  | .local _ .vmem, ⟨4, _⟩ => ⟨S96x96, .bf16⟩
  | .local _ .vmem, ⟨5, _⟩ => ⟨S96x96, .bf16⟩
  | .local _ .vmem, ⟨6, _⟩ => ⟨S1x1x96, .f32⟩
  | .local _ .vmem, ⟨7, _⟩ => ⟨S1x1x96, .f32⟩
  | .local _ .vmem, ⟨8, _⟩ => ⟨S32x81x96, .f32⟩
  | .local _ .vmem, ⟨9, _⟩ => ⟨S32x81x96, .f32⟩
  | _, _ => ⟨S512x81x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_c : Ref sig .tc := ⟨.hbm, 13, rfl⟩
abbrev main_call0_c_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x81x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1620x81 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x81x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S192x96_S96x96_0_0 : S192x96.Slices ![0, 0] S96x96
  bitsLt_bf16_f32 : FTy.bits .bf16 < FTy.bits .f32
  slices_S192x96_S96x96_96_0 : S192x96.Slices ![96, 0] S96x96
  shapeCasts_S96_S1x1x96 : S96.ShapeCasts S1x1x96
  bcast_S_S81x20 : S_.BroadcastsInDim S81x20 (![] : Fin 0 → Fin S81x20.rank)
  transposes_S81x20_S20x81_1_0 : S81x20.Transposes [1, 0] S20x81
  bcast_S81_S1x1x81_2 : S81.BroadcastsInDim S1x1x81 (![2] : Fin 1 → Fin S1x1x81.rank)
  bcast_S20x81_S20x81x1_0_1 : S20x81.BroadcastsInDim S20x81x1 (![0, 1] : Fin 2 → Fin S20x81x1.rank)
  bcast_S20x81x1_S20x81x81_0_1_2 : S20x81x1.BroadcastsInDim S20x81x81 (![0, 1, 2] : Fin 3 → Fin S20x81x81.rank)
  bcast_S1x1x81_S20x81x81_0_1_2 : S1x1x81.BroadcastsInDim S20x81x81 (![0, 1, 2] : Fin 3 → Fin S20x81x81.rank)
  shapeCasts_S20x81x81_S1620x81 : S20x81x81.ShapeCasts S1620x81
  inb_S32x81x96_S32x81x96_0_0_0 : ∀ a, (![0, 0, 0] : Fin 3 → Nat) a + S32x81x96.size a ≤ S32x81x96.size a
  h_S32x81x96 : 0 < S32x81x96.numel
  transposes_S32x81x96_p1_0_2_S81x32x96 : S32x81x96.Transposes [1, 0, 2] S81x32x96
  shapeCasts_S81x32x96_S2592x96 : S81x32x96.ShapeCasts S2592x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x1x96_S1x1x96_0_0_0 : ∀ a, (![0, 0, 0] : Fin 3 → Nat) a + S1x1x96.size a ≤ S1x1x96.size a
  h_S1x1x96 : 0 < S1x1x96.numel
  shapeCasts_S1x1x96_S1x1x96 : S1x1x96.ShapeCasts S1x1x96
  shapeCasts_S2592x96_S81x32x96 : S2592x96.ShapeCasts S81x32x96
  inb_S1620x81_S1620x81_0_0 : ∀ a, (![0, 0] : Fin 2 → Nat) a + S1620x81.size a ≤ S1620x81.size a
  h_S1620x81 : 0 < S1620x81.numel
  shapeCasts_S1620x81_S1620x81 : S1620x81.ShapeCasts S1620x81
  slices_S81x32x96_o0_0_0_S81x16x96 : S81x32x96.Slices ![0, 0, 0] S81x16x96
  shapeCasts_S81x16x96_S81x1536 : S81x16x96.ShapeCasts S81x1536
  shapeCasts_S1620x1536_S20x81x16x96 : S1620x1536.ShapeCasts S20x81x16x96
  slices_S20x81x16x96_o0_0_0_0_S1x81x16x96 : S20x81x16x96.Slices ![0, 0, 0, 0] S1x81x16x96
  shapeCasts_S1x81x16x96_S81x16x96 : S1x81x16x96.ShapeCasts S81x16x96
  broadcasts_S1x1x96_S81x16x96 : S1x1x96.Broadcasts S81x16x96
  slices_S20x81x16x96_o1_0_0_0_S1x81x16x96 : S20x81x16x96.Slices ![1, 0, 0, 0] S1x81x16x96
  slices_S20x81x16x96_o2_0_0_0_S1x81x16x96 : S20x81x16x96.Slices ![2, 0, 0, 0] S1x81x16x96
  slices_S20x81x16x96_o3_0_0_0_S1x81x16x96 : S20x81x16x96.Slices ![3, 0, 0, 0] S1x81x16x96
  slices_S20x81x16x96_o4_0_0_0_S1x81x16x96 : S20x81x16x96.Slices ![4, 0, 0, 0] S1x81x16x96
  slices_S20x81x16x96_o5_0_0_0_S1x81x16x96 : S20x81x16x96.Slices ![5, 0, 0, 0] S1x81x16x96
  slices_S20x81x16x96_o6_0_0_0_S1x81x16x96 : S20x81x16x96.Slices ![6, 0, 0, 0] S1x81x16x96
  slices_S20x81x16x96_o7_0_0_0_S1x81x16x96 : S20x81x16x96.Slices ![7, 0, 0, 0] S1x81x16x96
  slices_S20x81x16x96_o8_0_0_0_S1x81x16x96 : S20x81x16x96.Slices ![8, 0, 0, 0] S1x81x16x96
  slices_S20x81x16x96_o9_0_0_0_S1x81x16x96 : S20x81x16x96.Slices ![9, 0, 0, 0] S1x81x16x96
  slices_S20x81x16x96_o10_0_0_0_S1x81x16x96 : S20x81x16x96.Slices ![10, 0, 0, 0] S1x81x16x96
  slices_S20x81x16x96_o11_0_0_0_S1x81x16x96 : S20x81x16x96.Slices ![11, 0, 0, 0] S1x81x16x96
  slices_S20x81x16x96_o12_0_0_0_S1x81x16x96 : S20x81x16x96.Slices ![12, 0, 0, 0] S1x81x16x96
  slices_S20x81x16x96_o13_0_0_0_S1x81x16x96 : S20x81x16x96.Slices ![13, 0, 0, 0] S1x81x16x96
  slices_S20x81x16x96_o14_0_0_0_S1x81x16x96 : S20x81x16x96.Slices ![14, 0, 0, 0] S1x81x16x96
  slices_S20x81x16x96_o15_0_0_0_S1x81x16x96 : S20x81x16x96.Slices ![15, 0, 0, 0] S1x81x16x96
  slices_S20x81x16x96_o16_0_0_0_S1x81x16x96 : S20x81x16x96.Slices ![16, 0, 0, 0] S1x81x16x96
  slices_S20x81x16x96_o17_0_0_0_S1x81x16x96 : S20x81x16x96.Slices ![17, 0, 0, 0] S1x81x16x96
  slices_S20x81x16x96_o18_0_0_0_S1x81x16x96 : S20x81x16x96.Slices ![18, 0, 0, 0] S1x81x16x96
  slices_S20x81x16x96_o19_0_0_0_S1x81x16x96 : S20x81x16x96.Slices ![19, 0, 0, 0] S1x81x16x96
  shapeCasts_S81x16x96_S1296x96 : S81x16x96.ShapeCasts S1296x96
  shapeCasts_S1296x96_S81x16x96 : S1296x96.ShapeCasts S81x16x96
  transposes_S81x16x96_p1_0_2_S16x81x96 : S81x16x96.Transposes [1, 0, 2] S16x81x96
  inb_S32x81x96_S16x81x96_0_0_0 : ∀ a, (![0, 0, 0] : Fin 3 → Nat) a + S16x81x96.size a ≤ S32x81x96.size a
  h_S16x81x96 : 0 < S16x81x96.numel
  slices_S81x32x96_o0_16_0_S81x16x96 : S81x32x96.Slices ![0, 16, 0] S81x16x96
  inb_S32x81x96_S16x81x96_16_0_0 : ∀ a, (![16, 0, 0] : Fin 3 → Nat) a + S16x81x96.size a ≤ S32x81x96.size a
  dot_S2592x96_S96x96_S2592x96_1_0_0_1_n_n_wf : DotDims.WF S2592x96 S96x96 S2592x96 [1] [0] [0] [1] [] []
  dot_S1620x81_S81x1536_S1620x1536_1_0_0_1_n_n_wf : DotDims.WF S1620x81 S81x1536 S1620x1536 [1] [0] [0] [1] [] []
  dot_S1296x96_S96x96_S1296x96_1_0_0_1_n_n_wf : DotDims.WF S1296x96 S96x96 S1296x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x81x96.size a ≤ S512x81x96.size a
  hwx0_0 : ∀ i : grid0.Coords, EltTy.bits .f32 = 32 ∨ (Rect.block (s := S512x81x96) S32x81x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1620x81.size a ≤ S1620x81.size a
  hwx0_1 : ∀ i : grid0.Coords, EltTy.bits .bf16 = 32 ∨ (Rect.block (s := S1620x81) S1620x81.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .bf16 = 32 ∨ (Rect.block (s := S96x96) S96x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .bf16 = 32 ∨ (Rect.block (s := S96x96) S96x96.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .bf16 = 32 ∨ (Rect.block (s := S96x96) S96x96.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x96.size a ≤ S1x1x96.size a
  hwx0_5 : ∀ i : grid0.Coords, EltTy.bits .f32 = 32 ∨ (Rect.block (s := S1x1x96) S1x1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x96.size a ≤ S1x1x96.size a
  hwx0_6 : ∀ i : grid0.Coords, EltTy.bits .f32 = 32 ∨ (Rect.block (s := S1x1x96) S1x1x96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x81x96.size a ≤ S512x81x96.size a
  hwx0_7 : ∀ i : grid0.Coords, EltTy.bits .f32 = 32 ∨ (Rect.block (s := S512x81x96) S32x81x96.size (cc0_transform_7 i) (hinb0_7 i)).WholeWords (EltTy.packing .f32)

variable [Facts₀]

def dot_S2592x96_S96x96_S2592x96_1_0_0_1_n_n : DotDims S2592x96 S96x96 S2592x96 where
  lhsContracting := [1]
  rhsContracting := [0]
  lhsNonContracting := [0]
  rhsNonContracting := [1]
  lhsBatch := []
  rhsBatch := []
  wf := dot_S2592x96_S96x96_S2592x96_1_0_0_1_n_n_wf
def dot_S1620x81_S81x1536_S1620x1536_1_0_0_1_n_n : DotDims S1620x81 S81x1536 S1620x1536 where
  lhsContracting := [1]
  rhsContracting := [0]
  lhsNonContracting := [0]
  rhsNonContracting := [1]
  lhsBatch := []
  rhsBatch := []
  wf := dot_S1620x81_S81x1536_S1620x1536_1_0_0_1_n_n_wf
def dot_S1296x96_S96x96_S1296x96_1_0_0_1_n_n : DotDims S1296x96 S96x96 S1296x96 where
  lhsContracting := [1]
  rhsContracting := [0]
  lhsNonContracting := [0]
  rhsNonContracting := [1]
  lhsBatch := []
  rhsBatch := []
  wf := dot_S1296x96_S96x96_S1296x96_1_0_0_1_n_n_wf

abbrev win0_0 : Pipeline.Window sig grid0 :=
  Pipeline.Window.ofSpec (Memref.whole main_arg0) S32x81x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v16) S1620x81.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1x1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6) S1x1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S32x81x96.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x81x96 : Shape := ⟨3, ![512, 81, 96]⟩
abbrev S81x20 : Shape := ⟨2, ![81, 20]⟩
abbrev S192x96 : Shape := ⟨2, ![192, 96]⟩
abbrev S96 : Shape := ⟨1, ![96]⟩
abbrev S96x96 : Shape := ⟨2, ![96, 96]⟩
abbrev S_ : Shape := ⟨0, ![]⟩
abbrev S81x20x1 : Shape := ⟨3, ![81, 20, 1]⟩
abbrev S512x81x20x96 : Shape := ⟨4, ![512, 81, 20, 96]⟩
abbrev S512x81x1x96 : Shape := ⟨4, ![512, 81, 1, 96]⟩
abbrev S512x81x20x192 : Shape := ⟨4, ![512, 81, 20, 192]⟩
abbrev S1x1x1x96 : Shape := ⟨4, ![1, 1, 1, 96]⟩

abbrev nBuf : Space → Nat
  | .hbm => 31
  | .vmem => 0
  | .smem => 0
  | _ => 0

abbrev bufTy : (tb : Table) → Fin (tcTables nBuf tb) → BufTy
  | .hbm, ⟨0, _⟩ => ⟨S512x81x96, .f32⟩
  | .hbm, ⟨1, _⟩ => ⟨S81x20, .i32⟩
  | .hbm, ⟨2, _⟩ => ⟨S192x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S_, .i32⟩
  | .hbm, ⟨7, _⟩ => ⟨S81x20, .i32⟩
  | .hbm, ⟨8, _⟩ => ⟨S81x20, .i1⟩
  | .hbm, ⟨9, _⟩ => ⟨S_, .i32⟩
  | .hbm, ⟨10, _⟩ => ⟨S81x20, .i32⟩
  | .hbm, ⟨11, _⟩ => ⟨S81x20, .i32⟩
  | .hbm, ⟨12, _⟩ => ⟨S81x20, .i32⟩
  | .hbm, ⟨13, _⟩ => ⟨S81x20x1, .i32⟩
  | .hbm, ⟨14, _⟩ => ⟨S512x81x20x96, .f32⟩
  | .hbm, ⟨15, _⟩ => ⟨S512x81x1x96, .f32⟩
  | .hbm, ⟨16, _⟩ => ⟨S512x81x20x96, .f32⟩
  | .hbm, ⟨17, _⟩ => ⟨S512x81x20x192, .f32⟩
  | .hbm, ⟨18, _⟩ => ⟨S512x81x20x96, .f32⟩
  | .hbm, ⟨19, _⟩ => ⟨S1x1x1x96, .f32⟩
  | .hbm, ⟨20, _⟩ => ⟨S512x81x20x96, .f32⟩
  | .hbm, ⟨21, _⟩ => ⟨S512x81x20x96, .f32⟩
  | .hbm, ⟨22, _⟩ => ⟨S_, .f32⟩
  | .hbm, ⟨23, _⟩ => ⟨S512x81x20x96, .f32⟩
  | .hbm, ⟨24, _⟩ => ⟨S512x81x20x96, .f32⟩
  | .hbm, ⟨25, _⟩ => ⟨S512x81x20x96, .f32⟩
  | .hbm, ⟨26, _⟩ => ⟨S1x1x1x96, .f32⟩
  | .hbm, ⟨27, _⟩ => ⟨S512x81x20x96, .f32⟩
  | .hbm, ⟨28, _⟩ => ⟨S512x81x20x96, .f32⟩
  | .hbm, ⟨29, _⟩ => ⟨S_, .f32⟩
  | .hbm, ⟨30, _⟩ => ⟨S512x81x96, .f32⟩
  | _, _ => ⟨S512x81x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S81x20 : S_.BroadcastsInDim S81x20 (![] : Fin 0 → Fin S81x20.rank)
  bcast_S81x20_S81x20x1_0_1 : S81x20.BroadcastsInDim S81x20x1 (![0, 1] : Fin 2 → Fin S81x20x1.rank)
  bcast_S512x81x96_S512x81x1x96_0_1_3 : S512x81x96.BroadcastsInDim S512x81x1x96 (![0, 1, 3] : Fin 3 → Fin S512x81x1x96.rank)
  bcast_S512x81x1x96_S512x81x20x96_0_1_2_3 : S512x81x1x96.BroadcastsInDim S512x81x20x96 (![0, 1, 2, 3] : Fin 4 → Fin S512x81x20x96.rank)
  concatenates_S512x81x20x96_S512x81x20x96_S512x81x20x192_d3 : Shape.Concatenates [S512x81x20x96, S512x81x20x96] S512x81x20x192 3
  bcast_S96_S1x1x1x96_3 : S96.BroadcastsInDim S1x1x1x96 (![3] : Fin 1 → Fin S1x1x1x96.rank)
  bcast_S1x1x1x96_S512x81x20x96_0_1_2_3 : S1x1x1x96.BroadcastsInDim S512x81x20x96 (![0, 1, 2, 3] : Fin 4 → Fin S512x81x20x96.rank)
  bcast_S_S512x81x20x96 : S_.BroadcastsInDim S512x81x20x96 (![] : Fin 0 → Fin S512x81x20x96.rank)
  reducesTo_S512x81x20x96_S512x81x96_d2 : S512x81x20x96.ReducesTo [2] S512x81x96
  h_S_ : 0 < S_.numel
  gather_S512x81x96_S81x20x1_S512x81x20x96_03_1_n_n_1_2_512196_wf : GatherDims.WF S512x81x96 S81x20x1 S512x81x20x96 [0, 3] [1] [] [1] [] 2 ![512, 1, 96]
  dot_S512x81x20x192_S192x96_S512x81x20x96_3_0_012_1_n_n_wf : DotDims.WF S512x81x20x192 S192x96 S512x81x20x96 [3] [0] [0, 1, 2] [1] [] []
  dot_S512x81x20x96_S96x96_S512x81x20x96_3_0_012_1_n_n_wf : DotDims.WF S512x81x20x96 S96x96 S512x81x20x96 [3] [0] [0, 1, 2] [1] [] []

variable [Facts₀]

def gather_S512x81x96_S81x20x1_S512x81x20x96_03_1_n_n_1_2_512196 : GatherDims S512x81x96 S81x20x1 S512x81x20x96 where
  offsetDims := [0, 3]
  collapsedSliceDims := [1]
  operandBatchingDims := []
  startIndicesBatchingDims := []
  startIndexMap := [1]
  indexVectorDim := 2
  sliceSizes := ![512, 1, 96]
  wf := gather_S512x81x96_S81x20x1_S512x81x20x96_03_1_n_n_1_2_512196_wf
def dot_S512x81x20x192_S192x96_S512x81x20x96_3_0_012_1_n_n : DotDims S512x81x20x192 S192x96 S512x81x20x96 where
  lhsContracting := [3]
  rhsContracting := [0]
  lhsNonContracting := [0, 1, 2]
  rhsNonContracting := [1]
  lhsBatch := []
  rhsBatch := []
  wf := dot_S512x81x20x192_S192x96_S512x81x20x96_3_0_012_1_n_n_wf
def dot_S512x81x20x96_S96x96_S512x81x20x96_3_0_012_1_n_n : DotDims S512x81x20x96 S96x96 S512x81x20x96 where
  lhsContracting := [3]
  rhsContracting := [0]
  lhsNonContracting := [0, 1, 2]
  rhsNonContracting := [1]
  lhsBatch := []
  rhsBatch := []
  wf := dot_S512x81x20x96_S96x96_S512x81x20x96_3_0_012_1_n_n_wf

class Facts : Prop extends Facts₀ where

variable [Facts]
-- ==== Proof.Spec.lean ====
/-
  The function both programs compute, over the extended reals.

  x is [512, 81, 96] (batch row, cell, feature), the neighbour table gives each of the 81 cells 20 neighbour cells,
  W1 is [192, 96], b1 is [96], W2 is [96, 96], b2 is [96]. For a batch row b, a cell a, a hidden column h and an
  output column o, with `e a n` the n-th neighbour of cell a:

    S(b,a,h)   = Σ_d x[b,a,d] · W1[d,h]            the cell's own features through the upper half of W1
    N(b,j,h)   = Σ_d x[b,j,d] · W1[96+d,h]         cell j's features through the lower half of W1
    g(b,a,n,h) = max (S(b,a,h) + N(b, e a n, h) + b1[h]) 0
    G(b,a,o)   = Σ_h (Σ_n g(b,a,n,h)) · W2[h,o] + 20 · b2[o]

  `G` sums over the neighbours first and multiplies by W2 once. `R` is the same number taken neighbour by neighbour:
  the pair row (x[b,a,·] followed by x[b, e a n,·]) through the whole of W1, the second layer and its bias per
  neighbour, and the twenty results added to zero:

    R(b,a,o)   = 0 + Σ_n ( Σ_h max (Σ_k pair(b,a,n,k) · W1[k,h] + b1[h]) 0 · W2[h,o] + b2[o] ).
-/
import Idealize.ShloMosaic.PureOps.Ideal
import Idealize.ShloMosaic.Lib.ValueIdx

noncomputable section

open scoped BigOperators

namespace Cert.Gnn

open Idealize.ShloMosaic Idealize.ShloMosaic.ValueIdx

/-- Row `d` of the upper half of W1. -/
def lo (d : Fin 96) : Fin 192 := ⟨d.val, by omega⟩
/-- Row `96 + d` of W1: row `d` of its lower half. -/
def hi (d : Fin 96) : Fin 192 := ⟨96 + d.val, by omega⟩

/-- The neighbour table as cell numbers: the word at [a, n], reduced into the range of the 81 cells (where every
    word is below 81, see `InRange`, this is the word's own value). -/
def eOf (edges : (⟨2, ![81, 20]⟩ : Shape).Idx → BitVec 32) (a : Fin 81) (n : Fin 20) : Fin 81 :=
  ⟨(edges (ix2 a n)).toNat % 81, Nat.mod_lt _ (by decide)⟩

/-- Every entry of the neighbour table is a cell number: as an unsigned word it is below 81. -/
def InRange (edges : (⟨2, ![81, 20]⟩ : Shape).Idx → BitVec 32) : Prop :=
  ∀ (a : Fin 81) (n : Fin 20), (edges (ix2 a n)).toNat < 81

variable (x : (⟨3, ![512, 81, 96]⟩ : Shape).Idx → EReal) (e : Fin 81 → Fin 20 → Fin 81)
  (W1 : (⟨2, ![192, 96]⟩ : Shape).Idx → EReal) (b1 : (⟨1, ![96]⟩ : Shape).Idx → EReal)
  (W2 : (⟨2, ![96, 96]⟩ : Shape).Idx → EReal) (b2 : (⟨1, ![96]⟩ : Shape).Idx → EReal)

/-- Cell `a` of batch row `b` through the upper half of W1, at hidden column `h`. -/
def selfProj (b : Fin 512) (a : Fin 81) (h : Fin 96) : EReal :=
  ∑ d : Fin 96, x (ix3 b a d) * W1 (ix2 (lo d) h)

/-- Cell `j` of batch row `b` through the lower half of W1, at hidden column `h`. -/
def nbrProj (b : Fin 512) (j : Fin 81) (h : Fin 96) : EReal :=
  ∑ d : Fin 96, x (ix3 b j d) * W1 (ix2 (hi d) h)

/-- The hidden activation of cell `a` towards its `n`-th neighbour. -/
def gate (b : Fin 512) (a : Fin 81) (n : Fin 20) (h : Fin 96) : EReal :=
  max (selfProj x W1 b a h + nbrProj x W1 b (e a n) h + b1 (ix1 h)) 0

/-- The result, neighbours summed before the second layer. -/
def G : (⟨3, ![512, 81, 96]⟩ : Shape).Idx → EReal := fun i =>
  (∑ h : Fin 96, (∑ n : Fin 20, gate x e W1 b1 (i 0) (i 1) n h) * W2 (ix2 h (i 2))) + ((20 : ℝ) : EReal) * b2 (ix1 (i 2))

/-- The pair row of cell `a` and its `n`-th neighbour: the cell's 96 features, then the neighbour's. -/
def pair (b : Fin 512) (a : Fin 81) (n : Fin 20) (k : Fin 192) : EReal :=
  if hk : k.val < 96 then x (ix3 b a ⟨k.val, hk⟩) else x (ix3 b (e a n) ⟨k.val - 96, by omega⟩)

/-- The result, taken neighbour by neighbour and the twenty summands added to zero. -/
def R : (⟨3, ![512, 81, 96]⟩ : Shape).Idx → EReal := fun i =>
  0 + ∑ n : Fin 20,
    ((∑ h : Fin 96, max ((∑ k : Fin 192, pair x e (i 0) (i 1) n k * W1 (ix2 k h)) + b1 (ix1 h)) 0 * W2 (ix2 h (i 2)))
      + b2 (ix1 (i 2)))

end Cert.Gnn

end
-- ==== Proof.Algebra.lean ====
/-
  The neighbour-by-neighbour form `R` and the summed-first form `G` are the same function, for all extended-real
  inputs.

  Three facts carry it.
  * A sum over the 192 rows of W1 is the sum over its upper 96 rows plus the sum over its lower 96 rows, and the pair
    row is the cell's features on the upper rows and the neighbour's on the lower rows; so the first layer of the pair
    row is `selfProj + nbrProj`, and its relu is `gate`.
  * Adding b2 once per neighbour adds it twenty times: Σ_{n < 20} b2 = 20 · b2.
  * Every `gate` value is a maximum with 0, hence nonnegative; and over the extended reals (a + b) · c = a · c + b · c
    holds whenever a and b are nonnegative (no ∞ - ∞ can arise), so a finite sum of nonnegative terms may be
    multiplied by a constant term by term. After exchanging the sums over neighbours and hidden columns this moves the
    factor W2[h,o] out of the sum over neighbours.
-/
import proofs.«401384_j17746804867119_3_alg».proof.Proof.Spec
import Mathlib.Data.EReal.Operations
import Mathlib.Algebra.BigOperators.Fin
import Mathlib.Algebra.Order.BigOperators.Group.Finset

open scoped BigOperators

namespace Cert.Gnn

open Idealize.ShloMosaic Idealize.ShloMosaic.ValueIdx

/-- Right multiplication distributes over a finite sum of nonnegative extended reals. -/
theorem sum_mul_of_nonneg {ι : Type*} (s : Finset ι) (f : ι → EReal) (c : EReal)
    (hf : ∀ i ∈ s, 0 ≤ f i) : (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- A sum over the 192 rows is the sum over the upper 96 plus the sum over the lower 96. -/
theorem sum_rows (f : Fin 192 → EReal) :
    ∑ k : Fin 192, f k = ∑ d : Fin 96, f (lo d) + ∑ d : Fin 96, f (hi d) :=
  Fin.sum_univ_add (a := 96) (b := 96) f

variable (x : (⟨3, ![512, 81, 96]⟩ : Shape).Idx → EReal) (e : Fin 81 → Fin 20 → Fin 81)
  (W1 : (⟨2, ![192, 96]⟩ : Shape).Idx → EReal) (b1 : (⟨1, ![96]⟩ : Shape).Idx → EReal)
  (W2 : (⟨2, ![96, 96]⟩ : Shape).Idx → EReal) (b2 : (⟨1, ![96]⟩ : Shape).Idx → EReal)

/-- On the upper rows the pair row is the cell's own feature. -/
theorem pair_lo (b : Fin 512) (a : Fin 81) (n : Fin 20) (d : Fin 96) :
    pair x e b a n (lo d) = x (ix3 b a d) := by
  unfold pair
  rw [dif_pos (show (lo d).val < 96 from d.isLt)]
  rfl

/-- On the lower rows the pair row is the neighbour's feature. -/
theorem pair_hi (b : Fin 512) (a : Fin 81) (n : Fin 20) (d : Fin 96) :
    pair x e b a n (hi d) = x (ix3 b (e a n) d) := by
  unfold pair
  rw [dif_neg (show ¬ (hi d).val < 96 by simp [hi])]
  congr 2
  apply Fin.ext
  simp [hi]

/-- The pair row through the whole of W1 is the cell through the upper half plus the neighbour through the lower. -/
theorem pair_proj (b : Fin 512) (a : Fin 81) (n : Fin 20) (h : Fin 96) :
    (∑ k : Fin 192, pair x e b a n k * W1 (ix2 k h))
      = selfProj x W1 b a h + nbrProj x W1 b (e a n) h := by
  rw [sum_rows]
  simp only [pair_lo, pair_hi]
  rfl

/-- The relu of the pair row's first layer is the hidden activation `gate`. -/
theorem relu_pair (b : Fin 512) (a : Fin 81) (n : Fin 20) (h : Fin 96) :
    max ((∑ k : Fin 192, pair x e b a n k * W1 (ix2 k h)) + b1 (ix1 h)) 0 = gate x e W1 b1 b a n h := by
  rw [pair_proj]
  rfl

/-- The two forms agree on every extended-real input. -/
theorem R_eq_G : R x e W1 b1 W2 b2 = G x e W1 b1 W2 b2 := by
  funext i
  have hgate : ∀ (n : Fin 20) (h : Fin 96),
      max ((∑ k : Fin 192, pair x e (i 0) (i 1) n k * W1 (ix2 k h)) + b1 (ix1 h)) 0
        = gate x e W1 b1 (i 0) (i 1) n h :=
    fun n h => relu_pair x e W1 b1 (i 0) (i 1) n h
  unfold R G
  simp only [hgate]
  rw [zero_add, Finset.sum_add_distrib, Finset.sum_comm]
  congr 1
  · refine Finset.sum_congr rfl fun h _ => ?_
    rw [sum_mul_of_nonneg]
    intro n _
    exact le_max_right _ _
  · rw [Finset.sum_const, Finset.card_univ, Fintype.card_fin, EReal.nsmul_eq_mul]
    rfl

end Cert.Gnn
-- ==== Proof.PreDecode.lean ====
/-
  From the printed precondition to the range of the neighbour table.

  The precondition is a conjunction of six one-bit words: five say an input array is finite everywhere, the last
  says every word w of the neighbour table satisfies 0 ≤ w and w < 81 as a signed 32-bit integer. When the
  conjunction is 1 the last conjunct is 1; it is an and-reduction over the whole table, so the and of the two
  signed comparisons is 1 at every entry; a signed word that is at least 0 and below 81 has an unsigned value below 81.
-/
import proofs.«401384_j17746804867119_3_alg».proof.Pre_finite_inputs
import proofs.«401384_j17746804867119_3_alg».proof.Proof.Spec
import Idealize.ShloMosaic.Lib.ReduceAll
import Idealize.ShloMosaic.Lib.StableHlo.Predicate
import Idealize.ShloMosaic.Lib.ValueIdx

namespace Cert.Pre_finite_inputs.Decode

open Idealize.ShloMosaic Idealize.ShloMosaic.ValueIdx

/-- The scalar shape has one index. -/
instance : Subsingleton Cert.Pre_finite_inputs.S_.Idx := ⟨fun a b => funext fun d => d.elim0⟩

/-- A 32-bit word whose signed value lies in [0, 81) has an unsigned value below 81. -/
theorem toNat_lt_of_toInt (w : BitVec 32) (h0 : 0 ≤ w.toInt) (h1 : w.toInt < 81) : w.toNat < 81 := by
  have hw := w.isLt
  rw [BitVec.toInt_eq_toNat_cond] at h0 h1
  split at h0 <;> omega

/-- Under the precondition every entry of the neighbour table is a cell number. -/
theorem inRange_of_pre {F : FTy → Type} [FloatOps F] [Cert.Pre_finite_inputs.Facts]
    (a0 : FVec F Cert.Pre_finite_inputs.S512x81x96 .f32) (a1 : IVec Cert.Pre_finite_inputs.S81x20 32)
    (a2 : FVec F Cert.Pre_finite_inputs.S192x96 .f32) (a3 : FVec F Cert.Pre_finite_inputs.S96 .f32)
    (a4 : FVec F Cert.Pre_finite_inputs.S96x96 .f32) (a5 : FVec F Cert.Pre_finite_inputs.S96 .f32)
    (h : Cert.Pre_finite_inputs.fn (F := F) a0 a1 a2 a3 a4 a5 = fun _ => 1#1) : Cert.Gnn.InRange a1 := by
  intro a n
  have h0 := congrFun h ix0
  dsimp only [Cert.Pre_finite_inputs.fn, Cert.Pre_finite_inputs.fn_part1] at h0
  -- the last conjunct: the and-reduction of the two comparisons over the whole table
  have h1 := (IntOp.andi_eq_one.1 h0).2
  -- it is 1, so the and of the two comparisons is 1 at the entry [a, n]
  have h2 := Host.reduce_andi_all _ _ _ _ _ h1 (ix2 a n)
  obtain ⟨hge, hlt⟩ := IntOp.andi_eq_one.1 h2
  have hge' : (0#32 : BitVec 32).toInt ≤ (a1 (ix2 a n)).toInt := IntOp.cmpi_sge.1 hge
  have hlt' : (a1 (ix2 a n)).toInt < (81#32 : BitVec 32).toInt := IntOp.cmpi_slt.1 hlt
  exact toNat_lt_of_toInt _ (by simpa using hge') (by
    have e : (81#32 : BitVec 32).toInt = 81 := by decide
    rw [e] at hlt'; exact hlt')

end Cert.Pre_finite_inputs.Decode
-- ==== Proof.RefValue.lean ====
/-
  The reference program's result, read at an index, is the specification's `R`.

  The reference builds, for every batch row b, cell a and neighbour slot n, the pair row of 192 features — the cell's
  own 96 features followed by the 96 features of the cell the neighbour table names at [a, n] — sends it through W1,
  adds b1, takes the maximum with 0, sends the result through W2, adds b2, and adds the twenty results to 0. Read
  element by element, every stage but two is pointwise, a contraction over one axis, or a copy along new axes. The
  two others are read here by hand:

  * the gather of the neighbour rows: result element (b, a, n, d) is x[b, s, d] where s is the start index at
    [a, n, 0] read as a signed word and clamped into the 81 cells (`gather_at`). The start index is the table's word
    plus 81 where the word is negative and the word itself elsewhere; where every word is below 81 no word is
    negative, so the start index is the word (`start_word`), the signed reading is the unsigned one and the clamp
    changes nothing: s is the cell number `eOf x1 a n`;
  * the concatenation along the feature axis: coordinate k below 96 reads the first piece at k, coordinate k from 96
    on reads the second piece at k - 96 (`concat_at_left`, `concat_at_right`), which is the case split in `pair`.

  `joined_at` puts these together (the joined row is `pair`), `summand_at` reads one neighbour's summand, and
  `ref_eq` is the statement: under `InRange x1` the last stage equals `R` at the table `eOf x1`.
-/
import proofs.«401384_j17746804867119_3_alg».proof.Proof.Gen.ReferenceIdeal.Read
import proofs.«401384_j17746804867119_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The gather read at explicit coordinates: result element (b, a, n, d) is the operand at batch row b, feature d, and
    on the cell axis at the start index found at [a, n, 0], read signed and clamped into the 81 cells. -/
theorem gather_at {α : Type} (x : S512x81x96.Idx → α) (idx : IVec S81x20x1 32)
    (b : Fin 512) (a : Fin 81) (n : Fin 20) (d : Fin 96) :
    Host.gather gather_S512x81x96_S81x20x1_S512x81x20x96_03_1_n_n_1_2_512196 x idx (ix4 b a n d)
      = x (ix3 b ⟨min (idx (ix3 a n (0 : Fin 1))).toInt.toNat 80, by omega⟩ d) := by
  unfold Host.gather
  congr 1
  funext c
  refine Fin.ext ?_
  match c with
  | ⟨0, _⟩ =>
    show gather_S512x81x96_S81x20x1_S512x81x20x96_03_1_n_n_1_2_512196.start (ix4 b a n d) idx 0
      + gather_S512x81x96_S81x20x1_S512x81x20x96_03_1_n_n_1_2_512196.batchCoord (ix4 b a n d) 0
      + gather_S512x81x96_S81x20x1_S512x81x20x96_03_1_n_n_1_2_512196.offCoord (ix4 b a n d) 0 = b.val
    rw [GatherDims.batchCoord_eq_zero _ _ _ List.not_mem_nil]
    unfold GatherDims.start
    rw [dif_neg (show ¬ (0 : Fin 3) ∈ gather_S512x81x96_S81x20x1_S512x81x20x96_03_1_n_n_1_2_512196.startIndexMap by decide), Nat.zero_add]
    unfold GatherDims.offCoord
    rw [dif_pos (show (0 : Fin 3) ∈ gather_S512x81x96_S81x20x1_S512x81x20x96_03_1_n_n_1_2_512196.sKept by decide)]
    rfl
  | ⟨1, _⟩ =>
    show gather_S512x81x96_S81x20x1_S512x81x20x96_03_1_n_n_1_2_512196.start (ix4 b a n d) idx 1
      + gather_S512x81x96_S81x20x1_S512x81x20x96_03_1_n_n_1_2_512196.batchCoord (ix4 b a n d) 1
      + gather_S512x81x96_S81x20x1_S512x81x20x96_03_1_n_n_1_2_512196.offCoord (ix4 b a n d) 1
      = min (idx (ix3 a n (0 : Fin 1))).toInt.toNat 80
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S512x81x96_S81x20x1_S512x81x20x96_03_1_n_n_1_2_512196.startIndexMap from List.mem_singleton.mpr rfl)]
    have hsi : gather_S512x81x96_S81x20x1_S512x81x20x96_03_1_n_n_1_2_512196.siIdx (ix4 b a n d)
        ⟨List.idxOf (1 : Fin 3) gather_S512x81x96_S81x20x1_S512x81x20x96_03_1_n_n_1_2_512196.startIndexMap,
          List.idxOf_lt_length_iff.2 (List.mem_singleton.mpr rfl)⟩ = ix3 a n (0 : Fin 1) := by
      funext e; refine Fin.ext ?_
      match e with
      | ⟨0, _⟩ => rfl
      | ⟨1, _⟩ => rfl
      | ⟨2, _⟩ => rfl
    rw [hsi]
    rfl
  | ⟨2, _⟩ =>
    show gather_S512x81x96_S81x20x1_S512x81x20x96_03_1_n_n_1_2_512196.start (ix4 b a n d) idx 2
      + gather_S512x81x96_S81x20x1_S512x81x20x96_03_1_n_n_1_2_512196.batchCoord (ix4 b a n d) 2
      + gather_S512x81x96_S81x20x1_S512x81x20x96_03_1_n_n_1_2_512196.offCoord (ix4 b a n d) 2 = d.val
    rw [GatherDims.batchCoord_eq_zero _ _ _ List.not_mem_nil]
    unfold GatherDims.start
    rw [dif_neg (show ¬ (2 : Fin 3) ∈ gather_S512x81x96_S81x20x1_S512x81x20x96_03_1_n_n_1_2_512196.startIndexMap by decide), Nat.zero_add]
    unfold GatherDims.offCoord
    rw [dif_pos (show (2 : Fin 3) ∈ gather_S512x81x96_S81x20x1_S512x81x20x96_03_1_n_n_1_2_512196.sKept by decide)]
    rfl

/-- The concatenation at a coordinate below 96 on the joined axis reads the first piece at that coordinate. -/
theorem concat_at_left {α : Type} (y₁ y₂ : S512x81x20x96.Idx → α)
    (b : Fin 512) (a : Fin 81) (n : Fin 20) (k : Fin 192) (hk : k.val < 96) :
    concatenate S512x81x20x192 3 [⟨S512x81x20x96, y₁⟩, ⟨S512x81x20x96, y₂⟩]
        concatenates_S512x81x20x96_S512x81x20x96_S512x81x20x192_d3 (ix4 b a n k)
      = y₁ (ix4 b a n ⟨k.val, hk⟩) :=
  concatenate_pair_apply_left 3 y₁ y₂ _ (ix4 b a n k) rfl (ix4 b a n ⟨k.val, hk⟩) (fun c => by
    match c with
    | ⟨0, _⟩ => rfl
    | ⟨1, _⟩ => rfl
    | ⟨2, _⟩ => rfl
    | ⟨3, _⟩ => rfl)

/-- The concatenation at a coordinate from 96 on reads the second piece, the first piece's 96 columns less. -/
theorem concat_at_right {α : Type} (y₁ y₂ : S512x81x20x96.Idx → α)
    (b : Fin 512) (a : Fin 81) (n : Fin 20) (k : Fin 192) (hk : ¬ k.val < 96) :
    concatenate S512x81x20x192 3 [⟨S512x81x20x96, y₁⟩, ⟨S512x81x20x96, y₂⟩]
        concatenates_S512x81x20x96_S512x81x20x96_S512x81x20x192_d3 (ix4 b a n k)
      = y₂ (ix4 b a n ⟨k.val - 96, by omega⟩) :=
  concatenate_pair_apply_right 3 y₁ y₂ _ (ix4 b a n k) rfl rfl (ix4 b a n ⟨k.val - 96, by omega⟩) (fun c hc => by
    match c with
    | ⟨0, _⟩ => rfl
    | ⟨1, _⟩ => rfl
    | ⟨2, _⟩ => rfl
    | ⟨3, _⟩ => exact absurd rfl hc) (by show k.val - 96 + 96 = k.val; omega)

/-- Where every word of the neighbour table is below 81, the start-index array the gather reads (the word plus 81
    where the word is negative, else the word) holds the word itself at [a, n, 0]. -/
theorem start_word (x1 : (⟨S81x20, .i32⟩ : BufTy).Contents (Elt Ideal)) (hr : Cert.Gnn.InRange x1)
    (a : Fin 81) (n : Fin 20) :
    Read.val_main_v5 (F := Ideal) x1 (ix3 a n (0 : Fin 1)) = x1 (ix2 a n) := by
  have hw : (x1 (ix2 a n)).toNat < 81 := hr a n
  have e5 : Read.idx_main_v5 (ix3 a n (0 : Fin 1)) = ix2 a n := funext fun c => Fin.ext (by
    match c with
    | ⟨0, _⟩ => rfl
    | ⟨1, _⟩ => rfl)
  rw [Read.val_main_v5_apply, e5, Read.val_main_v4_apply, Read.val_main_v1_apply, Read.val_main_v0_apply,
    Read.val_main_c_apply]
  have hc : IntOp.cmpi .slt (x1 (ix2 a n)) 0#32 = 0#1 :=
    eq_zero_of_ne_one (fun h => by
      have := (StableHlo.Predicate.slt_iff_toNat (a := x1 (ix2 a n)) (b := 0#32) (by omega) (by decide)).1 h
      simp at this)
  rw [hc, select_zero]

/-- The joined row at (b, a, n, k) is the pair row of cell a and its n-th neighbour: below 96 the cell's own feature
    (the self rows broadcast along the neighbour axis), from 96 on the gathered feature of the neighbour cell. -/
theorem joined_at (x0 : (⟨S512x81x96, .f32⟩ : BufTy).Contents (Elt Ideal))
    (x1 : (⟨S81x20, .i32⟩ : BufTy).Contents (Elt Ideal)) (hr : Cert.Gnn.InRange x1)
    (b : Fin 512) (a : Fin 81) (n : Fin 20) (k : Fin 192) :
    Read.val_main_v9 (F := Ideal) x0 x1 (ix4 b a n k) = Cert.Gnn.pair x0 (Cert.Gnn.eOf x1) b a n k := by
  unfold Read.val_main_v9 Cert.Gnn.pair
  by_cases hk : k.val < 96
  · rw [dif_pos hk, concat_at_left _ _ b a n k hk, Read.val_main_v8_apply, Read.val_main_v7_apply]
    exact congrArg x0 (funext fun c => Fin.ext (by
      match c with
      | ⟨0, _⟩ => rfl
      | ⟨1, _⟩ => rfl
      | ⟨2, _⟩ => rfl))
  · rw [dif_neg hk, concat_at_right _ _ b a n k hk]
    unfold Read.val_main_v6
    rw [gather_at]
    have hw : (x1 (ix2 a n)).toNat < 81 := hr a n
    refine congrArg x0 (funext fun c => Fin.ext ?_)
    match c with
    | ⟨0, _⟩ => rfl
    | ⟨1, _⟩ =>
      show min (Read.val_main_v5 (F := Ideal) x1 (ix3 a n (0 : Fin 1))).toInt.toNat 80 = (x1 (ix2 a n)).toNat % 81
      rw [start_word x1 hr, StableHlo.Predicate.toInt_eq_toNat_of_lt (by omega), Int.toNat_natCast, Nat.mod_eq_of_lt hw]
      omega
    | ⟨2, _⟩ => rfl

/-- One neighbour's summand: the pair row through W1, the bias, the relu, W2 and its bias. -/
theorem summand_at (x0 : (⟨S512x81x96, .f32⟩ : BufTy).Contents (Elt Ideal))
    (x1 : (⟨S81x20, .i32⟩ : BufTy).Contents (Elt Ideal)) (x2 : (⟨S192x96, .f32⟩ : BufTy).Contents (Elt Ideal))
    (x3 : (⟨S96, .f32⟩ : BufTy).Contents (Elt Ideal)) (x4 : (⟨S96x96, .f32⟩ : BufTy).Contents (Elt Ideal))
    (x5 : (⟨S96, .f32⟩ : BufTy).Contents (Elt Ideal)) (hr : Cert.Gnn.InRange x1)
    (b : Fin 512) (a : Fin 81) (n : Fin 20) (o : Fin 96) :
    Read.val_main_v18 (F := Ideal) x0 x1 x2 x3 x4 x5 (ix4 b a n o)
      = (∑ h : Fin 96, max ((∑ k : Fin 192, Cert.Gnn.pair x0 (Cert.Gnn.eOf x1) b a n k * x2 (ix2 k h)) + x3 (ix1 h)) 0
          * x4 (ix2 h o)) + x5 (ix1 o) := by
  have e17 : Read.idx_main_v16 (Read.idx_main_v17 (ix4 b a n o)) = ix1 o := funext fun c => Fin.ext (by
    match c with
    | ⟨0, _⟩ => rfl)
  rw [Read.val_main_v18_apply, Read.val_main_v17_apply, Read.val_main_v16_apply, Read.val_main_v15_apply, e17,
    Ideal.addf_def]
  refine congrArg (· + x5 (ix1 o)) (Finset.sum_congr rfl fun h _ => ?_)
  have el : Read.lidx_main_v15 (ix4 b a n o) h = ix4 b a n h := funext fun c => Fin.ext (by
    match c with
    | ⟨0, _⟩ => rfl
    | ⟨1, _⟩ => rfl
    | ⟨2, _⟩ => rfl
    | ⟨3, _⟩ => rfl)
  have er : Read.ridx_main_v15 (ix4 b a n o) h = ix2 h o := funext fun c => Fin.ext (by
    match c with
    | ⟨0, _⟩ => rfl
    | ⟨1, _⟩ => rfl)
  have e12 : Read.idx_main_v11 (Read.idx_main_v12 (ix4 b a n h)) = ix1 h := funext fun c => Fin.ext (by
    match c with
    | ⟨0, _⟩ => rfl)
  rw [el, er, Read.val_main_v14_apply, Read.val_main_call0_v0_apply, Read.val_main_call0_cst_apply,
    Read.val_main_v13_apply, Read.val_main_v12_apply, Read.val_main_v11_apply, Read.val_main_v10_apply, e12,
    Ideal.maximumf_def, Ideal.addf_def, Ideal.ofBits_def, Ideal.ofBits_zero_f32]
  refine congrArg (fun s => max (s + x3 (ix1 h)) 0 * x4 (ix2 h o)) (Finset.sum_congr rfl fun k _ => ?_)
  have el' : Read.lidx_main_v10 (ix4 b a n h) k = ix4 b a n k := funext fun c => Fin.ext (by
    match c with
    | ⟨0, _⟩ => rfl
    | ⟨1, _⟩ => rfl
    | ⟨2, _⟩ => rfl
    | ⟨3, _⟩ => rfl)
  have er' : Read.ridx_main_v10 (ix4 b a n h) k = ix2 k h := funext fun c => Fin.ext (by
    match c with
    | ⟨0, _⟩ => rfl
    | ⟨1, _⟩ => rfl)
  rw [el', er', joined_at x0 x1 hr]

/-- Under the range condition on the neighbour table the reference's last stage is `R` at the table `eOf x1`. -/
theorem ref_eq (x0 : (⟨S512x81x96, .f32⟩ : BufTy).Contents (Elt Ideal))
    (x1 : (⟨S81x20, .i32⟩ : BufTy).Contents (Elt Ideal)) (x2 : (⟨S192x96, .f32⟩ : BufTy).Contents (Elt Ideal))
    (x3 : (⟨S96, .f32⟩ : BufTy).Contents (Elt Ideal)) (x4 : (⟨S96x96, .f32⟩ : BufTy).Contents (Elt Ideal))
    (x5 : (⟨S96, .f32⟩ : BufTy).Contents (Elt Ideal)) (hr : Cert.Gnn.InRange x1) :
    Cert.ReferenceIdeal.Read.val_main_v19 (F := Ideal) x0 x1 x2 x3 x4 x5
      = Cert.Gnn.R x0 (Cert.Gnn.eOf x1) x2 x3 x4 x5 := by
  funext i
  obtain ⟨b, a, o, rfl⟩ : ∃ (b : Fin 512) (a : Fin 81) (o : Fin 96), i = ix3 b a o := ⟨i 0, i 1, i 2, eq_ix3 i⟩
  rw [Read.val_main_v19_apply, Read.val_main_cst_apply, Ideal.ofBits_def, Ideal.ofBits_zero_f32]
  unfold Cert.Gnn.R
  refine congrArg (0 + ·) (Finset.sum_congr rfl fun n _ => ?_)
  have e19 : Read.idx_main_v19 (ix3 b a o) n = ix4 b a n o := funext fun c => Fin.ext (by
    match c with
    | ⟨0, _⟩ => rfl
    | ⟨1, _⟩ => rfl
    | ⟨2, _⟩ => rfl
    | ⟨3, _⟩ => rfl)
  rw [e19, summand_at x0 x1 x2 x3 x4 x5 hr]

end Cert.ReferenceIdeal.RefValue

end
-- ==== Proof.KLayout.lean ====
/-
  The layout operations of the kernel body, each read at an index written by coordinates.

  A shape cast keeps an element's row-major position, so a cast between a rank-3 shape [p, q, r] and the matrix whose
  rows are the pairs (a, b), or whose columns are the pairs (b, c), reads the same element at the matching index: the
  position of (a, b, c) is (a·q + b)·r + c = a·(q·r) + (b·r + c). Likewise a matrix [m, n] with m rows numbered
  a·q + b and n = r·s columns numbered c·s + d is the rank-4 array at (a, b, c, d). A transpose with permutation
  [1, 0, 2] swaps the first two coordinates; a slice of unit extent along the first axis at offset o reads row o; a
  [1, 1, r] array broadcast to [p, q, r] reads its one row; and a plain M×K by K×N product accumulated into zero is, at
  (r, c), the sum over k of lhs (r, k) · rhs (k, c).
-/
import Idealize.ShloMosaic.Lib.ValueIdx
import Idealize.ShloMosaic.Lib.Pipeline.Value
import Idealize.ShloMosaic.Lib.ValueLayout
import Idealize.ShloMosaic.PureOps.Ideal.Laws
import Mathlib.Tactic.Ring

open scoped BigOperators

namespace Cert.Gnn.Layout

open Idealize.ShloMosaic Idealize.ShloMosaic.ValueIdx

variable {α : Type}

/-- A [p, q, r] array cast to the matrix [m, r] whose row k is the pair (a, b), k = a·q + b. -/
theorem cast3to2 {p q r m : ℕ} (x : (⟨3, ![p, q, r]⟩ : Shape).Idx → α)
    (h : (⟨3, ![p, q, r]⟩ : Shape).ShapeCasts ⟨2, ![m, r]⟩) (a : Fin p) (b : Fin q) (c : Fin r) (k : Fin m)
    (hk : k.val = a.val * q + b.val) : shapeCast ⟨2, ![m, r]⟩ x h (ix2 k c) = x (ix3 a b c) :=
  shapeCast_apply x h _ _ (by
    rw [Shape.rowMajor_val_three, Shape.rowMajor_val_two]
    show (a.val * q + b.val) * r + c.val = k.val * r + c.val
    rw [hk])

/-- The matrix [m, r] cast to [p, q, r]: at (a, b, c) it reads row k = a·q + b. -/
theorem cast2to3 {p q r m : ℕ} (x : (⟨2, ![m, r]⟩ : Shape).Idx → α)
    (h : (⟨2, ![m, r]⟩ : Shape).ShapeCasts ⟨3, ![p, q, r]⟩) (a : Fin p) (b : Fin q) (c : Fin r) (k : Fin m)
    (hk : k.val = a.val * q + b.val) : shapeCast ⟨3, ![p, q, r]⟩ x h (ix3 a b c) = x (ix2 k c) :=
  shapeCast_apply x h _ _ (by
    rw [Shape.rowMajor_val_three, Shape.rowMajor_val_two]
    show k.val * r + c.val = (a.val * q + b.val) * r + c.val
    rw [hk])

/-- A [p, q, r] array cast to the matrix [p, n], n = q·r, whose column l is the pair (b, c), l = b·r + c. -/
theorem cast3to2cols {p q r n : ℕ} (x : (⟨3, ![p, q, r]⟩ : Shape).Idx → α)
    (h : (⟨3, ![p, q, r]⟩ : Shape).ShapeCasts ⟨2, ![p, n]⟩) (hn : n = q * r) (a : Fin p) (b : Fin q) (c : Fin r)
    (l : Fin n) (hl : l.val = b.val * r + c.val) : shapeCast ⟨2, ![p, n]⟩ x h (ix2 a l) = x (ix3 a b c) :=
  shapeCast_apply x h _ _ (by
    rw [Shape.rowMajor_val_three, Shape.rowMajor_val_two]
    show (a.val * q + b.val) * r + c.val = a.val * n + l.val
    rw [hl, hn]
    ring)

/-- The matrix [m, n], n = r·s, cast to [p, q, r, s]: at (a, b, c, d) it reads row a·q + b, column c·s + d. -/
theorem cast2to4 {p q r s m n : ℕ} (x : (⟨2, ![m, n]⟩ : Shape).Idx → α)
    (h : (⟨2, ![m, n]⟩ : Shape).ShapeCasts ⟨4, ![p, q, r, s]⟩) (hn : n = r * s) (a : Fin p) (b : Fin q) (c : Fin r)
    (d : Fin s) (k : Fin m) (l : Fin n) (hk : k.val = a.val * q + b.val) (hl : l.val = c.val * s + d.val) :
    shapeCast ⟨4, ![p, q, r, s]⟩ x h (ix4 a b c d) = x (ix2 k l) :=
  shapeCast_apply x h _ _ (by
    rw [Shape.rowMajor_val_four, Shape.rowMajor_val_two]
    show k.val * n + l.val = ((a.val * q + b.val) * r + c.val) * s + d.val
    rw [hk, hl, hn]
    ring)

/-- A [p, q, r] array with its first two axes swapped reads, at (b, a, c), the operand at (a, b, c). -/
theorem transpose102 {p q r : ℕ} (x : (⟨3, ![p, q, r]⟩ : Shape).Idx → α)
    (h : (⟨3, ![p, q, r]⟩ : Shape).Transposes [1, 0, 2] ⟨3, ![q, p, r]⟩) (b : Fin q) (a : Fin p) (c : Fin r) :
    transpose ⟨3, ![q, p, r]⟩ [1, 0, 2] x h (ix3 b a c) = x (ix3 a b c) :=
  transpose_apply _ x h _ _ fun e => match e with | ⟨0, _⟩ => rfl | ⟨1, _⟩ => rfl | ⟨2, _⟩ => rfl

/-- A rank-4 array cut to unit extent along axis 0 at offset o reads, at (u, b, c, d), the source at (o, b, c, d). -/
theorem slice4_axis0_unit {n0 n1 n2 n3 : ℕ} (o : ℕ) (X : (⟨4, ![n0, n1, n2, n3]⟩ : Shape).Idx → α)
    (h : (⟨4, ![n0, n1, n2, n3]⟩ : Shape).Slices ![o, 0, 0, 0] ⟨4, ![1, n1, n2, n3]⟩) (u : Fin 1) (b : Fin n1)
    (c : Fin n2) (d : Fin n3) (k : Fin n0) (hk : k.val = o) :
    extractStridedSlice ⟨4, ![1, n1, n2, n3]⟩ ![o, 0, 0, 0] X h (ix4 u b c d) = X (ix4 k b c d) :=
  extractStridedSlice_apply _ _ _ _ _ (fun ax => by
    match ax with
    | ⟨0, _⟩ =>
      have hu : u.val = 0 := by omega
      show k.val = o + u.val
      rw [hk, hu, Nat.add_zero]
    | ⟨1, _⟩ => exact (Nat.zero_add _).symm
    | ⟨2, _⟩ => exact (Nat.zero_add _).symm
    | ⟨3, _⟩ => exact (Nat.zero_add _).symm)

/-- A [1, 1, r] array broadcast to [p, q, r] reads, at (a, b, c), its one row at c. -/
theorem bcast_11r {p q r : ℕ} (x : (⟨3, ![1, 1, r]⟩ : Shape).Idx → α)
    (h : (⟨3, ![1, 1, r]⟩ : Shape).Broadcasts ⟨3, ![p, q, r]⟩) (hr : r ≠ 1) (a : Fin p) (b : Fin q) (c : Fin r) :
    broadcastTo ⟨3, ![p, q, r]⟩ x h (ix3 a b c) = x (ix3 (0 : Fin 1) (0 : Fin 1) c) := by
  refine broadcastTo_apply x h (ix3 a b c) (ix3 (0 : Fin 1) (0 : Fin 1) c) fun ax => ?_
  match ax with
  | ⟨0, _⟩ => rfl
  | ⟨1, _⟩ => rfl
  | ⟨2, _⟩ =>
    show c.val = if r = 1 then 0 else c.val
    rw [if_neg hr]

/-! ## A plain matrix product read at an element -/

/-- The left operand's row coordinate is the output's row. -/
theorem plain_lhs_0 {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The left operand's column coordinate is the contraction index. -/
theorem plain_lhs_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index. -/
theorem plain_rhs_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem plain_rhs_1 {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- A plain M×K by K×N product into the zero accumulator, at the ideal values: at (r, c) the sum over the
    contraction index of the operands' products. -/
theorem plain_matmul_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  show FloatOps.matmul (DotDims.plain M K N) prec lhs rhs (constant ⟨2, ![M, N]⟩ .f32 0x00000000#32) (ix2 r c) = _
  rw [Ideal.matmul_constant_zero_apply,
    ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c)
      ((ValueIdx.contrEquiv1 (DotDims.plain M K N) K rfl rfl).symm k) = ix2 r k := funext fun a => Fin.ext (by
    match a with
    | ⟨0, _⟩ => exact plain_lhs_0 _ _
    | ⟨1, _⟩ => exact (plain_lhs_1 _ _).trans hk)
  have er : (DotDims.plain M K N).rhsIdx (ix2 r c)
      ((ValueIdx.contrEquiv1 (DotDims.plain M K N) K rfl rfl).symm k) = ix2 k c := funext fun a => Fin.ext (by
    match a with
    | ⟨0, _⟩ => exact (plain_rhs_0 _ _).trans hk
    | ⟨1, _⟩ => exact plain_rhs_1 _ _)
  rw [el, er]

end Cert.Gnn.Layout
-- ==== Proof.KDots.lean ====
/-
  The three dimension-number records of the kernel's matrix products are the plain M×K by K×N ones: the same six lists
  of axes, and the well-formedness field is a proof, so the records are equal.
-/
import proofs.«401384_j17746804867119_3_alg».proof.KernelIdeal
import proofs.«401384_j17746804867119_3_alg».proof.Proof.KLayout

namespace Cert.KernelIdeal.Dots

open Idealize.ShloMosaic
open Cert.KernelIdeal

variable [Facts₀]

theorem dotA_eq : dot_S2592x96_S96x96_S2592x96_1_0_0_1_n_n = DotDims.plain 2592 96 96 := rfl

theorem dotB_eq : dot_S1620x81_S81x1536_S1620x1536_1_0_0_1_n_n = DotDims.plain 1620 81 1536 := rfl

theorem dotC_eq : dot_S1296x96_S96x96_S1296x96_1_0_0_1_n_n = DotDims.plain 1296 96 96 := rfl

end Cert.KernelIdeal.Dots
-- ==== Proof.KSpec.lean ====
/-
  What one grid step of the kernel leaves in its output block, as a function of the blocks it reads.

  A step reads a block xb of 32 batch rows of x ([32, 81, 96]), the one-hot neighbour table oh ([1620, 81]: row
  n·81 + a marks the n-th neighbour of cell a), the two halves w1s, w1n of W1 ([96, 96] each), W2, and the two biases
  as [1, 1, 96]. For a batch row bl of the block, a cell a, a hidden column h and an output column o:

    selfB(a,bl,h)    = Σ_d xb[bl,a,d] · w1s[d,h]
    nbrB(j,bl,h)     = Σ_d xb[bl,j,d] · w1n[d,h]
    chunkB(n,a,bl,h) = Σ_j oh[n·81+a, j] · nbrB(j,bl,h)            the one-hot row picks the neighbour's projection
    gateB(n,a,bl,h)  = max (selfB(a,bl,h) + chunkB(n,a,bl,h) + b1[0,0,h]) 0
    Kblk(bl,a,o)     = Σ_h (Σ_n gateB(n,a,bl,h)) · w2[h,o] + 20 · b2[0,0,o]

  The body computes the block in two halves of 16 batch rows; both halves are restrictions of this one function.
-/
import Idealize.ShloMosaic.PureOps.Ideal
import Idealize.ShloMosaic.Lib.ValueIdx

noncomputable section

open scoped BigOperators

namespace Cert.Gnn

open Idealize.ShloMosaic Idealize.ShloMosaic.ValueIdx

/-- Row n·81 + a of the one-hot table. -/
def ohRow (n : Fin 20) (a : Fin 81) : Fin 1620 := ⟨n.val * 81 + a.val, by omega⟩

variable (xb : (⟨3, ![32, 81, 96]⟩ : Shape).Idx → EReal) (oh : (⟨2, ![1620, 81]⟩ : Shape).Idx → EReal)
  (w1s w1n w2 : (⟨2, ![96, 96]⟩ : Shape).Idx → EReal) (b1r b2r : (⟨3, ![1, 1, 96]⟩ : Shape).Idx → EReal)

/-- Cell a of the block's batch row bl through the upper half of W1. -/
def selfB (a : Fin 81) (bl : Fin 32) (h : Fin 96) : EReal := ∑ d : Fin 96, xb (ix3 bl a d) * w1s (ix2 d h)

/-- Cell j of the block's batch row bl through the lower half of W1. -/
def nbrB (j : Fin 81) (bl : Fin 32) (h : Fin 96) : EReal := ∑ d : Fin 96, xb (ix3 bl j d) * w1n (ix2 d h)

/-- The one-hot row of (n, a) against the neighbour projections of all 81 cells. -/
def chunkB (n : Fin 20) (a : Fin 81) (bl : Fin 32) (h : Fin 96) : EReal :=
  ∑ j : Fin 81, oh (ix2 (ohRow n a) j) * nbrB xb w1n j bl h

/-- The hidden activation towards the n-th neighbour. -/
def gateB (n : Fin 20) (a : Fin 81) (bl : Fin 32) (h : Fin 96) : EReal :=
  max (selfB xb w1s a bl h + chunkB xb oh w1n n a bl h + b1r (ix3 (0 : Fin 1) (0 : Fin 1) h)) 0

/-- The output block. -/
def Kblk : (⟨3, ![32, 81, 96]⟩ : Shape).Idx → EReal := fun y =>
  (∑ h : Fin 96, (∑ n : Fin 20, gateB xb oh w1s w1n b1r n (y 1) (y 0) h) * w2 (ix2 h (y 2)))
    + ((20 : ℝ) : EReal) * b2r (ix3 (0 : Fin 1) (0 : Fin 1) (y 2))

/-- Twenty summands added one after another, from the left, are their sum. -/
theorem sum20 (f : Fin 20 → EReal) :
    f ⟨0, by decide⟩ + f ⟨1, by decide⟩ + f ⟨2, by decide⟩ + f ⟨3, by decide⟩ + f ⟨4, by decide⟩ + f ⟨5, by decide⟩
      + f ⟨6, by decide⟩ + f ⟨7, by decide⟩ + f ⟨8, by decide⟩ + f ⟨9, by decide⟩ + f ⟨10, by decide⟩ + f ⟨11, by decide⟩
      + f ⟨12, by decide⟩ + f ⟨13, by decide⟩ + f ⟨14, by decide⟩ + f ⟨15, by decide⟩ + f ⟨16, by decide⟩ + f ⟨17, by decide⟩
      + f ⟨18, by decide⟩ + f ⟨19, by decide⟩ = ∑ n : Fin 20, f n := by
  rw [Finset.sum_fin_eq_sum_range]
  simp only [Finset.sum_range_succ, Finset.sum_range_zero, zero_add]
  simp

end Cert.Gnn

end
-- ==== Proof.KPayload.lean ====
/-
  The values the kernel body stores, read at an index.

  The body transposes its block of x to [81, 32, 96] and flattens it to 2592 rows (row a·32 + bl is cell a of batch
  row bl); two products with the halves of W1 give every cell's own projection and its projection as a neighbour. Each
  half of 16 batch rows then takes the one-hot table against the neighbour projections laid out [81, 16·96] (column
  bh·96 + h), which picks for each (n, a) the projection of the n-th neighbour of a; twenty hidden activations are
  added one after another to a zero accumulator; the accumulator, flattened to 1296 rows, goes through W2, twenty
  times the second bias is added, and the half is transposed back to [16, 81, 96]. Read at an index, each of these
  steps is a re-indexing, a sum over the contracted axis, or a pointwise operation, and the stored half is the
  block function `Kblk` at the half's rows.
-/
import proofs.«401384_j17746804867119_3_alg».proof.Proof.Gen.KernelIdeal.Frame
import proofs.«401384_j17746804867119_3_alg».proof.Proof.KLayout
import proofs.«401384_j17746804867119_3_alg».proof.Proof.KDots
import proofs.«401384_j17746804867119_3_alg».proof.Proof.KSpec
import Idealize.ShloMosaic.Lib.ValueLayout
import Mathlib.Tactic.FinCases
import Idealize.ShloMosaic.Lib.Pipeline.Value

noncomputable section

open scoped BigOperators

namespace Cert.KernelIdeal.Payload

open Idealize.ShloMosaic Idealize.ShloMosaic.ValueIdx Cert.KernelIdeal Cert.KernelIdeal.Gen Cert.Gnn

/-- Row a·32 + bl of the flattened block: cell a of batch row bl. -/
def row32 (a : Fin 81) (bl : Fin 32) : Fin 2592 := ⟨a.val * 32 + bl.val, by omega⟩
/-- Row a·16 + bh of a flattened half. -/
def row16 (a : Fin 81) (bh : Fin 16) : Fin 1296 := ⟨a.val * 16 + bh.val, by omega⟩
/-- Column bh·96 + h of a half laid out [81, 16·96]. -/
def col (bh : Fin 16) (h : Fin 96) : Fin 1536 := ⟨bh.val * 96 + h.val, by omega⟩
/-- Batch row bh of the first half, as a row of the block. -/
def lowB (bh : Fin 16) : Fin 32 := ⟨bh.val, by omega⟩
/-- Batch row bh of the second half, as a row of the block. -/
def highB (bh : Fin 16) : Fin 32 := ⟨16 + bh.val, by omega⟩

/-- The flattened, transposed block: row a·32 + bl holds x[bl, a, ·]. -/
theorem pay2_apply (v0 : Vec Ideal S32x81x96 .f32) (a : Fin 81) (bl : Fin 32) (d : Fin 96) :
    k0_pay2 v0 (ix2 (row32 a bl) d) = v0 (ix3 bl a d) := by
  unfold k0_pay2
  dsimp only
  rw [Layout.cast3to2 _ _ a bl d (row32 a bl) rfl, truncf_apply, Layout.transpose102 _ _ a bl d]

/-- The own projection of every cell of the block. -/
theorem pay6_apply (v0 : Vec Ideal S32x81x96 .f32) (v4 : Vec Ideal S96x96 .bf16) (a : Fin 81) (bl : Fin 32) (h : Fin 96) :
    k0_pay6 v0 v4 (ix3 a bl h) = selfB v0 v4 a bl h := by
  unfold k0_pay6 selfB
  rw [Layout.cast2to3 _ _ a bl h (row32 a bl) rfl, Dots.dotA_eq, Layout.plain_matmul_apply]
  refine Finset.sum_congr rfl fun d _ => ?_
  rw [pay2_apply, shapeCast_self]

/-- The projection of every cell of the block as a neighbour. -/
theorem pay7_apply (v0 : Vec Ideal S32x81x96 .f32) (v6 : Vec Ideal S96x96 .bf16) (j : Fin 81) (bl : Fin 32) (h : Fin 96) :
    k0_pay7 v0 v6 (ix3 j bl h) = nbrB v0 v6 j bl h := by
  unfold k0_pay7 nbrB
  rw [Layout.cast2to3 _ _ j bl h (row32 j bl) rfl, Dots.dotA_eq, Layout.plain_matmul_apply]
  refine Finset.sum_congr rfl fun d _ => ?_
  rw [pay2_apply, shapeCast_self]

/-- The own projections of the first half's batch rows. -/
theorem pay9_apply (v0 : Vec Ideal S32x81x96 .f32) (v4 : Vec Ideal S96x96 .bf16) (a : Fin 81) (bh : Fin 16) (h : Fin 96) :
    k0_pay9 v0 v4 (ix3 a bh h) = selfB v0 v4 a (lowB bh) h := by
  unfold k0_pay9
  rw [slice3_axis1_apply 0 _ _ a bh h (lowB bh) (Nat.zero_add _).symm, pay6_apply]

/-- The own projections of the second half's batch rows. -/
theorem pay18_apply (v0 : Vec Ideal S32x81x96 .f32) (v4 : Vec Ideal S96x96 .bf16) (a : Fin 81) (bh : Fin 16) (h : Fin 96) :
    k0_pay18 (k0_pay6 v0 v4) (ix3 a bh h) = selfB v0 v4 a (highB bh) h := by
  unfold k0_pay18
  rw [slice3_axis1_apply 16 _ _ a bh h (highB bh) rfl, pay6_apply]

/-- The one-hot table against the first half's neighbour projections: entry (n, a, bh, h). -/
theorem pay10_apply (v0 : Vec Ideal S32x81x96 .f32) (v6 : Vec Ideal S96x96 .bf16) (v18 : Vec Ideal S1620x81 .bf16)
    (n : Fin 20) (a : Fin 81) (bh : Fin 16) (h : Fin 96) :
    k0_pay10 v0 v6 v18 (ix4 n a bh h) = chunkB v0 v18 v6 n a (lowB bh) h := by
  unfold k0_pay10 chunkB k0_pay8
  rw [Layout.cast2to4 _ _ (by decide) n a bh h (ohRow n a) (col bh h) rfl rfl, Dots.dotB_eq, Layout.plain_matmul_apply]
  refine Finset.sum_congr rfl fun j _ => ?_
  rw [shapeCast_self, Layout.cast3to2cols _ _ (by decide) j bh h (col bh h) rfl, truncf_apply,
    slice3_axis1_apply 0 _ _ j bh h (lowB bh) (Nat.zero_add _).symm, pay7_apply]

/-- The one-hot table against the second half's neighbour projections. -/
theorem pay19_apply (v0 : Vec Ideal S32x81x96 .f32) (v6 : Vec Ideal S96x96 .bf16) (v18 : Vec Ideal S1620x81 .bf16)
    (n : Fin 20) (a : Fin 81) (bh : Fin 16) (h : Fin 96) :
    k0_pay19 (k0_pay7 v0 v6) (k0_pay8 v18) (ix4 n a bh h) = chunkB v0 v18 v6 n a (highB bh) h := by
  unfold k0_pay19 chunkB k0_pay8
  rw [Layout.cast2to4 _ _ (by decide) n a bh h (ohRow n a) (col bh h) rfl rfl, Dots.dotB_eq, Layout.plain_matmul_apply]
  refine Finset.sum_congr rfl fun j _ => ?_
  rw [shapeCast_self, Layout.cast3to2cols _ _ (by decide) j bh h (col bh h) rfl, truncf_apply,
    slice3_axis1_apply 16 _ _ j bh h (highB bh) rfl, pay7_apply]

/-- Slab n of the one-hot product, its unit axis dropped, read at (a, bh, h). -/
theorem slab_apply (v25 : FVec Ideal S20x81x16x96 .f32) (o : ℕ) (ho : o < 20)
    (hs : S20x81x16x96.Slices ![o, 0, 0, 0] S1x81x16x96) (hc : S1x81x16x96.ShapeCasts S81x16x96)
    (a : Fin 81) (bh : Fin 16) (h : Fin 96) :
    shapeCast S81x16x96 (extractStridedSlice S1x81x16x96 ![o, 0, 0, 0] v25 hs) hc (ix3 a bh h) = v25 (ix4 ⟨o, ho⟩ a bh h) := by
  rw [shapeCast_1abc_abc_apply, Layout.slice4_axis0_unit o _ _ 0 a bh h ⟨o, ho⟩ rfl]

/-- The first bias spread over a half, read at (a, bh, h). -/
theorem bias_apply (v11 : FVec Ideal S1x1x96 .f32) (hb : S1x1x96.Broadcasts S81x16x96) (a : Fin 81) (bh : Fin 16) (h : Fin 96) :
    broadcastTo S81x16x96 v11 hb (ix3 a bh h) = v11 (ix3 (0 : Fin 1) (0 : Fin 1) h) :=
  Layout.bcast_11r _ _ (by decide) a bh h

/-- The scalar +0.0 is the extended real 0. -/
theorem zero_f32 : (Scalar.ofBits .f32 0x00000000#32 : Ideal .f32) = 0 := by
  show Ideal.ofBits .f32 0x00000000#32 = 0
  exact Ideal.ofBits_zero_f32

/-- One neighbour's hidden activation, from the three values the accumulation reads. -/
def gt (v11 : FVec Ideal S1x1x96 .f32) (v20 : FVec Ideal S81x16x96 .f32) (v25 : FVec Ideal S20x81x16x96 .f32)
    (n : Fin 20) (a : Fin 81) (bh : Fin 16) (h : Fin 96) : EReal :=
  max (v20 (ix3 a bh h) + v25 (ix4 n a bh h) + v11 (ix3 (0 : Fin 1) (0 : Fin 1) h)) 0

/-- The first half's accumulator after all twenty neighbours, at (a, bh, h): zero, then the activations one after another. -/
theorem acc0_apply (v0 : Vec Ideal S32x81x96 .f32) (v4 v6 : Vec Ideal S96x96 .bf16) (v10 : Vec Ideal S1x1x96 .f32)
    (v18 : Vec Ideal S1620x81 .bf16) (a : Fin 81) (bh : Fin 16) (h : Fin 96) :
    k0_pay15 (k0_pay4 v10) (k0_pay9 v0 v4) (k0_pay10 v0 v6 v18)
        (k0_pay13 (k0_pay4 v10) (k0_pay9 v0 v4) (k0_pay10 v0 v6 v18) (k0_pay11 v0 v4 v6 v10 v18) (k0_pay12 v0 v6 v18))
        (k0_pay14 (k0_pay4 v10) (k0_pay9 v0 v4) (k0_pay10 v0 v6 v18)) (ix3 a bh h)
      = 0 + gt (k0_pay4 v10) (k0_pay9 v0 v4) (k0_pay10 v0 v6 v18) ⟨0, by decide⟩ a bh h
          + gt (k0_pay4 v10) (k0_pay9 v0 v4) (k0_pay10 v0 v6 v18) ⟨1, by decide⟩ a bh h
          + gt (k0_pay4 v10) (k0_pay9 v0 v4) (k0_pay10 v0 v6 v18) ⟨2, by decide⟩ a bh h
          + gt (k0_pay4 v10) (k0_pay9 v0 v4) (k0_pay10 v0 v6 v18) ⟨3, by decide⟩ a bh h
          + gt (k0_pay4 v10) (k0_pay9 v0 v4) (k0_pay10 v0 v6 v18) ⟨4, by decide⟩ a bh h
          + gt (k0_pay4 v10) (k0_pay9 v0 v4) (k0_pay10 v0 v6 v18) ⟨5, by decide⟩ a bh h
          + gt (k0_pay4 v10) (k0_pay9 v0 v4) (k0_pay10 v0 v6 v18) ⟨6, by decide⟩ a bh h
          + gt (k0_pay4 v10) (k0_pay9 v0 v4) (k0_pay10 v0 v6 v18) ⟨7, by decide⟩ a bh h
          + gt (k0_pay4 v10) (k0_pay9 v0 v4) (k0_pay10 v0 v6 v18) ⟨8, by decide⟩ a bh h
          + gt (k0_pay4 v10) (k0_pay9 v0 v4) (k0_pay10 v0 v6 v18) ⟨9, by decide⟩ a bh h
          + gt (k0_pay4 v10) (k0_pay9 v0 v4) (k0_pay10 v0 v6 v18) ⟨10, by decide⟩ a bh h
          + gt (k0_pay4 v10) (k0_pay9 v0 v4) (k0_pay10 v0 v6 v18) ⟨11, by decide⟩ a bh h
          + gt (k0_pay4 v10) (k0_pay9 v0 v4) (k0_pay10 v0 v6 v18) ⟨12, by decide⟩ a bh h
          + gt (k0_pay4 v10) (k0_pay9 v0 v4) (k0_pay10 v0 v6 v18) ⟨13, by decide⟩ a bh h := by
  unfold k0_pay15 k0_pay14 k0_pay13 k0_pay12 k0_pay11
  simp only [addf_apply, maximumf_apply, broadcast_apply, bias_apply, zero_f32, gt]
  rw [slab_apply _ 0 (by decide), slab_apply _ 1 (by decide), slab_apply _ 2 (by decide), slab_apply _ 3 (by decide), slab_apply _ 4 (by decide), slab_apply _ 5 (by decide), slab_apply _ 6 (by decide), slab_apply _ 7 (by decide), slab_apply _ 8 (by decide), slab_apply _ 9 (by decide), slab_apply _ 10 (by decide), slab_apply _ 11 (by decide), slab_apply _ 12 (by decide), slab_apply _ 13 (by decide)]

/-- The scalar 20.0 is the real 20. -/
theorem twenty_f32 : (Scalar.ofBits .f32 0x41A00000#32 : Ideal .f32) = ((20 : ℝ) : EReal) := by
  show Ideal.ofBits .f32 0x41A00000#32 = ((20 : ℝ) : EReal)
  simp [Ideal.ofBits, Ideal.ieee, -EReal.coe_mul]; norm_num

/-- The first half as stored: rows 0 … 15 of the block function. -/
theorem piece0 (x0 : Vec Ideal S32x81x96 .f32) (x1 : Vec Ideal S1620x81 .bf16) (x2 x3 x4 : Vec Ideal S96x96 .bf16)
    (x5 x6 : Vec Ideal S1x1x96 .f32) (bh : Fin 16) (a : Fin 81) (o : Fin 96) :
    k0_pay17 (k0_pay3 x4) (k0_pay4 x5) (k0_pay5 x6) (k0_pay9 x0 x2) (k0_pay10 x0 x3 x1)
        (k0_pay15 (k0_pay4 x5) (k0_pay9 x0 x2) (k0_pay10 x0 x3 x1)
          (k0_pay13 (k0_pay4 x5) (k0_pay9 x0 x2) (k0_pay10 x0 x3 x1) (k0_pay11 x0 x2 x3 x5 x1) (k0_pay12 x0 x3 x1))
          (k0_pay14 (k0_pay4 x5) (k0_pay9 x0 x2) (k0_pay10 x0 x3 x1)))
        (k0_pay16 (k0_pay4 x5) (k0_pay9 x0 x2) (k0_pay10 x0 x3 x1)) (ix3 bh a o)
      = Kblk x0 x1 x2 x3 x4 x5 x6 (ix3 (lowB bh) a o) := by
  unfold k0_pay17
  rw [Layout.transpose102 _ _ bh a o, addf_apply, Layout.cast2to3 _ _ a bh o (row16 a bh) rfl, Dots.dotC_eq,
    Layout.plain_matmul_apply, bias_apply, mulf_apply, broadcast_apply, twenty_f32]
  unfold Kblk
  refine congrArg₂ (· + ·) (Finset.sum_congr rfl fun h _ => ?_) ?_
  · rw [Layout.cast3to2 _ _ a bh h (row16 a bh) rfl, truncf_apply]
    simp only [addf_apply, maximumf_apply, broadcast_apply, bias_apply, zero_f32]
    rw [slab_apply _ 15 (by decide), slab_apply _ 16 (by decide), slab_apply _ 17 (by decide), slab_apply _ 18 (by decide), slab_apply _ 19 (by decide), acc0_apply]
    unfold k0_pay16
    simp only [addf_apply, bias_apply, gt]
    rw [slab_apply _ 14 (by decide)]
    have hs := sum20 (fun n : Fin 20 =>
      max (k0_pay9 x0 x2 (ix3 a bh h) + k0_pay10 x0 x3 x1 (ix4 n a bh h) + k0_pay4 x5 (ix3 (0 : Fin 1) (0 : Fin 1) h)) 0)
    beta_reduce at hs
    rw [zero_add, hs]
    show (∑ n : Fin 20, _) * k0_pay3 x4 (ix2 h o) = (∑ n : Fin 20, gateB x0 x1 x2 x3 x5 n a (lowB bh) h) * x4 (ix2 h o)
    have e3 : k0_pay3 x4 = x4 := by unfold k0_pay3; exact shapeCast_self _ _
    have e4 : k0_pay4 x5 = x5 := by unfold k0_pay4; exact shapeCast_self _ _
    rw [e3]
    refine congrArg (· * _) (Finset.sum_congr rfl fun n _ => ?_)
    unfold gateB
    rw [pay9_apply, pay10_apply, e4]
  · show _ * k0_pay5 x6 (ix3 (0 : Fin 1) (0 : Fin 1) o) = _ * x6 (ix3 (0 : Fin 1) (0 : Fin 1) o)
    have e5 : k0_pay5 x6 = x6 := by unfold k0_pay5; exact shapeCast_self _ _
    rw [e5]

/-- The second half's accumulator after eighteen neighbours, at (a, bh, h). -/
theorem acc1_apply (x0 : Vec Ideal S32x81x96 .f32) (x1 : Vec Ideal S1620x81 .bf16) (x2 x3 : Vec Ideal S96x96 .bf16)
    (x5 : Vec Ideal S1x1x96 .f32) (a : Fin 81) (bh : Fin 16) (h : Fin 96) :
    k0_pay25 (k0_pay4 x5) (k0_pay18 (k0_pay6 x0 x2)) (k0_pay19 (k0_pay7 x0 x3) (k0_pay8 x1))
        (k0_pay22 (k0_pay4 x5) (k0_pay18 (k0_pay6 x0 x2)) (k0_pay19 (k0_pay7 x0 x3) (k0_pay8 x1))
          (k0_pay20 (k0_pay4 x5) (k0_pay6 x0 x2) (k0_pay7 x0 x3) (k0_pay8 x1))
          (k0_pay21 (k0_pay7 x0 x3) (k0_pay8 x1)))
        (k0_pay23 (k0_pay4 x5) (k0_pay18 (k0_pay6 x0 x2)) (k0_pay19 (k0_pay7 x0 x3) (k0_pay8 x1)))
        (k0_pay24 (F := Ideal)) (ix3 a bh h)
      = 0 + gt (k0_pay4 x5) (k0_pay18 (k0_pay6 x0 x2)) (k0_pay19 (k0_pay7 x0 x3) (k0_pay8 x1)) ⟨0, by decide⟩ a bh h
          + gt (k0_pay4 x5) (k0_pay18 (k0_pay6 x0 x2)) (k0_pay19 (k0_pay7 x0 x3) (k0_pay8 x1)) ⟨1, by decide⟩ a bh h
          + gt (k0_pay4 x5) (k0_pay18 (k0_pay6 x0 x2)) (k0_pay19 (k0_pay7 x0 x3) (k0_pay8 x1)) ⟨2, by decide⟩ a bh h
          + gt (k0_pay4 x5) (k0_pay18 (k0_pay6 x0 x2)) (k0_pay19 (k0_pay7 x0 x3) (k0_pay8 x1)) ⟨3, by decide⟩ a bh h
          + gt (k0_pay4 x5) (k0_pay18 (k0_pay6 x0 x2)) (k0_pay19 (k0_pay7 x0 x3) (k0_pay8 x1)) ⟨4, by decide⟩ a bh h
          + gt (k0_pay4 x5) (k0_pay18 (k0_pay6 x0 x2)) (k0_pay19 (k0_pay7 x0 x3) (k0_pay8 x1)) ⟨5, by decide⟩ a bh h
          + gt (k0_pay4 x5) (k0_pay18 (k0_pay6 x0 x2)) (k0_pay19 (k0_pay7 x0 x3) (k0_pay8 x1)) ⟨6, by decide⟩ a bh h
          + gt (k0_pay4 x5) (k0_pay18 (k0_pay6 x0 x2)) (k0_pay19 (k0_pay7 x0 x3) (k0_pay8 x1)) ⟨7, by decide⟩ a bh h
          + gt (k0_pay4 x5) (k0_pay18 (k0_pay6 x0 x2)) (k0_pay19 (k0_pay7 x0 x3) (k0_pay8 x1)) ⟨8, by decide⟩ a bh h
          + gt (k0_pay4 x5) (k0_pay18 (k0_pay6 x0 x2)) (k0_pay19 (k0_pay7 x0 x3) (k0_pay8 x1)) ⟨9, by decide⟩ a bh h
          + gt (k0_pay4 x5) (k0_pay18 (k0_pay6 x0 x2)) (k0_pay19 (k0_pay7 x0 x3) (k0_pay8 x1)) ⟨10, by decide⟩ a bh h
          + gt (k0_pay4 x5) (k0_pay18 (k0_pay6 x0 x2)) (k0_pay19 (k0_pay7 x0 x3) (k0_pay8 x1)) ⟨11, by decide⟩ a bh h
          + gt (k0_pay4 x5) (k0_pay18 (k0_pay6 x0 x2)) (k0_pay19 (k0_pay7 x0 x3) (k0_pay8 x1)) ⟨12, by decide⟩ a bh h
          + gt (k0_pay4 x5) (k0_pay18 (k0_pay6 x0 x2)) (k0_pay19 (k0_pay7 x0 x3) (k0_pay8 x1)) ⟨13, by decide⟩ a bh h
          + gt (k0_pay4 x5) (k0_pay18 (k0_pay6 x0 x2)) (k0_pay19 (k0_pay7 x0 x3) (k0_pay8 x1)) ⟨14, by decide⟩ a bh h
          + gt (k0_pay4 x5) (k0_pay18 (k0_pay6 x0 x2)) (k0_pay19 (k0_pay7 x0 x3) (k0_pay8 x1)) ⟨15, by decide⟩ a bh h
          + gt (k0_pay4 x5) (k0_pay18 (k0_pay6 x0 x2)) (k0_pay19 (k0_pay7 x0 x3) (k0_pay8 x1)) ⟨16, by decide⟩ a bh h
          + gt (k0_pay4 x5) (k0_pay18 (k0_pay6 x0 x2)) (k0_pay19 (k0_pay7 x0 x3) (k0_pay8 x1)) ⟨17, by decide⟩ a bh h := by
  unfold k0_pay25 k0_pay24 k0_pay23 k0_pay22 k0_pay21 k0_pay20
  simp only [addf_apply, maximumf_apply, broadcast_apply, bias_apply, zero_f32, gt]
  rw [slab_apply _ 0 (by decide), slab_apply _ 1 (by decide), slab_apply _ 2 (by decide), slab_apply _ 3 (by decide), slab_apply _ 4 (by decide), slab_apply _ 5 (by decide), slab_apply _ 6 (by decide), slab_apply _ 7 (by decide), slab_apply _ 8 (by decide), slab_apply _ 9 (by decide), slab_apply _ 10 (by decide), slab_apply _ 11 (by decide), slab_apply _ 12 (by decide), slab_apply _ 13 (by decide), slab_apply _ 14 (by decide), slab_apply _ 15 (by decide), slab_apply _ 16 (by decide), slab_apply _ 17 (by decide)]

/-- The second half as stored: rows 16 … 31 of the block function. -/
theorem piece1 (x0 : Vec Ideal S32x81x96 .f32) (x1 : Vec Ideal S1620x81 .bf16) (x2 x3 x4 : Vec Ideal S96x96 .bf16)
    (x5 x6 : Vec Ideal S1x1x96 .f32) (bh : Fin 16) (a : Fin 81) (o : Fin 96) :
    k0_pay1 (k0_pay3 x4) (k0_pay4 x5) (k0_pay5 x6) (k0_pay18 (k0_pay6 x0 x2)) (k0_pay19 (k0_pay7 x0 x3) (k0_pay8 x1))
        (k0_pay25 (k0_pay4 x5) (k0_pay18 (k0_pay6 x0 x2)) (k0_pay19 (k0_pay7 x0 x3) (k0_pay8 x1))
        (k0_pay22 (k0_pay4 x5) (k0_pay18 (k0_pay6 x0 x2)) (k0_pay19 (k0_pay7 x0 x3) (k0_pay8 x1))
          (k0_pay20 (k0_pay4 x5) (k0_pay6 x0 x2) (k0_pay7 x0 x3) (k0_pay8 x1))
          (k0_pay21 (k0_pay7 x0 x3) (k0_pay8 x1)))
        (k0_pay23 (k0_pay4 x5) (k0_pay18 (k0_pay6 x0 x2)) (k0_pay19 (k0_pay7 x0 x3) (k0_pay8 x1)))
        (k0_pay24 (F := Ideal)))
        (k0_pay26 (k0_pay18 (k0_pay6 x0 x2)) (k0_pay19 (k0_pay7 x0 x3) (k0_pay8 x1))) (k0_pay27 (k0_pay4 x5)) (ix3 bh a o)
      = Kblk x0 x1 x2 x3 x4 x5 x6 (ix3 (highB bh) a o) := by
  unfold k0_pay1
  rw [Layout.transpose102 _ _ bh a o, addf_apply, Layout.cast2to3 _ _ a bh o (row16 a bh) rfl, Dots.dotC_eq,
    Layout.plain_matmul_apply, bias_apply, mulf_apply, broadcast_apply, twenty_f32]
  unfold Kblk
  refine congrArg₂ (· + ·) (Finset.sum_congr rfl fun h _ => ?_) ?_
  · rw [Layout.cast3to2 _ _ a bh h (row16 a bh) rfl, truncf_apply]
    simp only [addf_apply, maximumf_apply, broadcast_apply, bias_apply, zero_f32]
    rw [slab_apply _ 19 (by decide), acc1_apply]
    unfold k0_pay26 k0_pay27
    simp only [addf_apply, bias_apply, gt]
    rw [slab_apply _ 18 (by decide)]
    have hs := sum20 (fun n : Fin 20 =>
      max (k0_pay18 (k0_pay6 x0 x2) (ix3 a bh h) + k0_pay19 (k0_pay7 x0 x3) (k0_pay8 x1) (ix4 n a bh h)
        + k0_pay4 x5 (ix3 (0 : Fin 1) (0 : Fin 1) h)) 0)
    beta_reduce at hs
    rw [zero_add, hs]
    show (∑ n : Fin 20, _) * k0_pay3 x4 (ix2 h o) = (∑ n : Fin 20, gateB x0 x1 x2 x3 x5 n a (highB bh) h) * x4 (ix2 h o)
    have e3 : k0_pay3 x4 = x4 := by unfold k0_pay3; exact shapeCast_self _ _
    have e4 : k0_pay4 x5 = x5 := by unfold k0_pay4; exact shapeCast_self _ _
    rw [e3]
    refine congrArg (· * _) (Finset.sum_congr rfl fun n _ => ?_)
    unfold gateB
    rw [pay18_apply, pay19_apply, e4]
  · show _ * k0_pay5 x6 (ix3 (0 : Fin 1) (0 : Fin 1) o) = _ * x6 (ix3 (0 : Fin 1) (0 : Fin 1) o)
    have e5 : k0_pay5 x6 = x6 := by unfold k0_pay5; exact shapeCast_self _ _
    rw [e5]

/-- What the body leaves in the output block: both stored halves are the block function at their rows. -/
theorem out0_7_eq (x0 : Vec Ideal S32x81x96 .f32) (x1 : Vec Ideal S1620x81 .bf16) (x2 x3 x4 : Vec Ideal S96x96 .bf16)
    (x5 x6 : Vec Ideal S1x1x96 .f32) :
    out0_7 (F := Ideal) x0 x1 x2 x3 x4 x5 x6 = Kblk x0 x1 x2 x3 x4 x5 x6 := by
  have hz3 : (![0, 0, 0] : Fin 3 → ℕ) = fun _ => 0 := by funext i; fin_cases i <;> rfl
  have hz2 : (![0, 0] : Fin 2 → ℕ) = fun _ => 0 := by funext i; fin_cases i <;> rfl
  funext y
  unfold out0_7
  simp only [View.ld_unit_zero (S := S32x81x96) hz3, View.ld_unit_zero (S := S96x96) hz2,
    View.ld_unit_zero (S := S1x1x96) hz3, View.ld_unit_zero (S := S1620x81) hz2]
  refine View.canon_apply_of_pieces (Val := Elt Ideal) (S := S32x81x96) (e := .f32) (Kblk x0 x1 x2 x3 x4 x5 x6) _ ?_ y (cover0_7 _ _ y)
  intro p hp x
  rcases List.mem_cons.mp hp with rfl | hp
  · obtain ⟨bh, a, o, rfl⟩ : ∃ (bh : Fin 16) (a : Fin 81) (o : Fin 96), x = ix3 bh a o := ⟨x 0, x 1, x 2, eq_ix3 x⟩
    dsimp only
    rw [piece1]
    refine congrArg _ (funext fun ax => Fin.ext ?_)
    match ax with
    | ⟨0, _⟩ => show 16 + bh.val = 16 + 1 * bh.val; omega
    | ⟨1, _⟩ => show a.val = 0 + 1 * a.val; omega
    | ⟨2, _⟩ => show o.val = 0 + 1 * o.val; omega
  · obtain rfl := List.mem_singleton.mp hp
    obtain ⟨bh, a, o, rfl⟩ : ∃ (bh : Fin 16) (a : Fin 81) (o : Fin 96), x = ix3 bh a o := ⟨x 0, x 1, x 2, eq_ix3 x⟩
    dsimp only
    rw [piece0]
    refine congrArg _ (funext fun ax => Fin.ext ?_)
    match ax with
    | ⟨0, _⟩ => show bh.val = 0 + 1 * bh.val; omega
    | ⟨1, _⟩ => show a.val = 0 + 1 * a.val; omega
    | ⟨2, _⟩ => show o.val = 0 + 1 * o.val; omega

end Cert.KernelIdeal.Payload

end
-- ==== Proof.HostVal.lean ====
/-
  What the host operations in front of the kernel's one call leave in the arrays it reads, over the extended reals.

  W1 is cut into its upper and lower halves (rows 0–95 and 96–191) and W2 is taken whole, each with a change of float
  format, which is the identity on extended reals; b1 and b2 are laid out as [1, 1, 96]; and the neighbour table is
  clipped to [0, 80], transposed, compared with the column numbers 0 … 80 and the bit converted to a float, giving
  a one-hot table of 20 · 81 rows: row n·81 + a has its 1 in the column of cell a's n-th neighbour.
-/
import proofs.«401384_j17746804867119_3_alg».proof.Proof.Gen.KernelIdeal.Frame
import proofs.«401384_j17746804867119_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.HostVal

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The upper half of W1, as the kernel reads it: row d is W1's row d. -/
theorem V_w1s (c : Dev nD) (d h : Fin 96) :
    (V m c main_call0_v1 : S96x96.Idx → EReal) (ix2 d h)
      = (m ((c : Thread nD τ).loc main_arg2) : S192x96.Idx → EReal) (ix2 (Cert.Gnn.lo d) h) := by
  have e : (V m c main_call0_v1 : S96x96.Idx → EReal)
      = truncf (F := Ideal) .bf16 (extractStridedSlice S96x96 ![0, 0]
          (m ((c : Thread nD τ).loc main_arg2) : S192x96.Idx → EReal) slices_S192x96_S96x96_0_0) bitsLt_bf16_f32 := by
    dsimp only [Gen.V, Gen.hostOps0]
    after_results
    rfl
  rw [e]
  -- the change of format is the identity on extended reals; the slice starts at row 0
  exact slice2_axis0_apply 0 (m ((c : Thread nD τ).loc main_arg2) : S192x96.Idx → EReal) slices_S192x96_S96x96_0_0 d h
    (Cert.Gnn.lo d) (Nat.zero_add _).symm

/-- The lower half of W1, as the kernel reads it: row d is W1's row 96 + d. -/
theorem V_w1n (c : Dev nD) (d h : Fin 96) :
    (V m c main_call0_v3 : S96x96.Idx → EReal) (ix2 d h)
      = (m ((c : Thread nD τ).loc main_arg2) : S192x96.Idx → EReal) (ix2 (Cert.Gnn.hi d) h) := by
  have e : (V m c main_call0_v3 : S96x96.Idx → EReal)
      = truncf (F := Ideal) .bf16 (extractStridedSlice S96x96 ![96, 0]
          (m ((c : Thread nD τ).loc main_arg2) : S192x96.Idx → EReal) slices_S192x96_S96x96_96_0) bitsLt_bf16_f32 := by
    dsimp only [Gen.V, Gen.hostOps0]
    after_results
    rfl
  rw [e]
  exact slice2_axis0_apply 96 (m ((c : Thread nD τ).loc main_arg2) : S192x96.Idx → EReal) slices_S192x96_S96x96_96_0 d h
    (Cert.Gnn.hi d) rfl

/-- W2 as the kernel reads it: the change of format is the identity on extended reals. -/
theorem V_w2 (c : Dev nD) :
    (V m c main_call0_v4 : S96x96.Idx → EReal) = (m ((c : Thread nD τ).loc main_arg4) : S96x96.Idx → EReal) := by
  dsimp only [Gen.V, Gen.hostOps0]
  after_results
  rfl

/-- A vector of 96 laid out as [1, 1, 96] reads, at (0, 0, h), the vector at h. -/
theorem reshape_1x1x96 (x : S96.Idx → EReal) (hc : S96.ShapeCasts S1x1x96) (h : Fin 96) :
    shapeCast S1x1x96 x hc (ix3 0 0 h) = x (ix1 h) :=
  shapeCast_apply x hc _ _ (by
    rw [Shape.rowMajor_val_one, Shape.rowMajor_val_three]
    show h.val = (0 * 1 + 0) * 96 + h.val
    omega)

/-- b1 as the kernel reads it. -/
theorem V_b1 (c : Dev nD) (h : Fin 96) :
    (V m c main_call0_v5 : S1x1x96.Idx → EReal) (ix3 0 0 h) = (m ((c : Thread nD τ).loc main_arg3) : S96.Idx → EReal) (ix1 h) := by
  have e : (V m c main_call0_v5 : S1x1x96.Idx → EReal)
      = shapeCast S1x1x96 (m ((c : Thread nD τ).loc main_arg3) : S96.Idx → EReal) shapeCasts_S96_S1x1x96 := by
    dsimp only [Gen.V, Gen.hostOps0]
    after_results
    rfl
  rw [e]
  exact reshape_1x1x96 _ _ h

/-- b2 as the kernel reads it. -/
theorem V_b2 (c : Dev nD) (h : Fin 96) :
    (V m c main_call0_v6 : S1x1x96.Idx → EReal) (ix3 0 0 h) = (m ((c : Thread nD τ).loc main_arg5) : S96.Idx → EReal) (ix1 h) := by
  have e : (V m c main_call0_v6 : S1x1x96.Idx → EReal)
      = shapeCast S1x1x96 (m ((c : Thread nD τ).loc main_arg5) : S96.Idx → EReal) shapeCasts_S96_S1x1x96 := by
    dsimp only [Gen.V, Gen.hostOps0]
    after_results
    rfl
  rw [e]
  exact reshape_1x1x96 _ _ h

/-! ## The one-hot table -/

/-- A word below 81 is left alone by the clip to [0, 80]. -/
theorem clip_id (w : BitVec 32) (hw : w.toNat < 81) : IntOp.minsi 80#32 (IntOp.maxsi 0#32 w) = w := by
  have hti : w.toInt = w.toNat := StableHlo.Predicate.toInt_eq_toNat_of_lt (by omega)
  have h0 : (0#32 : BitVec 32).toInt = 0 := by decide
  have h80 : (80#32 : BitVec 32).toInt = 80 := by decide
  have hmax : IntOp.maxsi 0#32 w = w := by
    unfold IntOp.maxsi
    split <;> rename_i hc <;> simp only [BitVec.slt, hti, h0, decide_eq_true_eq] at hc
    · exfalso; omega
    · rfl
  rw [hmax]
  unfold IntOp.minsi
  split <;> rename_i hc <;> simp only [BitVec.slt, hti, h80, decide_eq_true_eq] at hc
  · exfalso; omega
  · rfl

/-- The [20, 81, 81] array laid out as [1620, 81]: row n·81 + a, column j is entry (n, a, j). -/
theorem reshape_1620x81 {α : Type} (X : S20x81x81.Idx → α) (hc : S20x81x81.ShapeCasts S1620x81) (n : Fin 20) (a j : Fin 81)
    (hlt : n.val * 81 + a.val < 1620) :
    shapeCast S1620x81 X hc (ix2 ⟨n.val * 81 + a.val, hlt⟩ j) = X (ix3 n a j) :=
  shapeCast_apply X hc _ _ (by
    rw [Shape.rowMajor_val_three, Shape.rowMajor_val_two]
    rfl)

/-- A [20, 81] table repeated along a new last axis reads, at (n, a, j), the table at (n, a). -/
theorem bcast_left {α : Type} (T : S20x81.Idx → α) (h1 : S20x81.BroadcastsInDim S20x81x1 ![0, 1])
    (h2 : S20x81x1.BroadcastsInDim S20x81x81 ![0, 1, 2]) (n : Fin 20) (a j : Fin 81) :
    broadcastInDim S20x81x81 ![0, 1, 2] h2 (broadcastInDim S20x81x1 ![0, 1] h1 T) (ix3 n a j) = T (ix2 n a) := by
  refine (broadcastInDim_apply _ h2 _ (ix3 n a j) (ix3 n a (0 : Fin 1)) (fun ax => ?_)).trans
    (broadcastInDim_apply _ h1 T (ix3 n a (0 : Fin 1)) (ix2 n a) (fun ax => ?_))
  · match ax with
    | ⟨0, _⟩ => rfl
    | ⟨1, _⟩ => rfl
    | ⟨2, _⟩ => rfl
  · match ax with
    | ⟨0, _⟩ => rfl
    | ⟨1, _⟩ => rfl

/-- A vector of 81 repeated over the first two axes reads, at (n, a, j), the vector at j. -/
theorem bcast_right {α : Type} (v : S81.Idx → α) (h1 : S81.BroadcastsInDim S1x1x81 ![2])
    (h2 : S1x1x81.BroadcastsInDim S20x81x81 ![0, 1, 2]) (n : Fin 20) (a j : Fin 81) :
    broadcastInDim S20x81x81 ![0, 1, 2] h2 (broadcastInDim S1x1x81 ![2] h1 v) (ix3 n a j) = v (ix1 j) := by
  refine (broadcastInDim_apply _ h2 _ (ix3 n a j) (ix3 (0 : Fin 1) (0 : Fin 1) j) (fun ax => ?_)).trans
    (broadcastInDim_apply _ h1 v (ix3 (0 : Fin 1) (0 : Fin 1) j) (ix1 j) (fun ax => ?_))
  · match ax with
    | ⟨0, _⟩ => rfl
    | ⟨1, _⟩ => rfl
    | ⟨2, _⟩ => rfl
  · match ax with
    | ⟨0, _⟩ => rfl

/-- One entry of the one-hot: where the left operand is a word w below 81 and the right operand is the word of a
    number k below 81, the bit "equal", converted to a float, is 1 when w's value is k and 0 otherwise. -/
theorem onehot_entry {s : Shape} (L R : s.Idx → BitVec 32) (i : s.Idx) (w : BitVec 32) (k : ℕ) (hk : k < 81)
    (hL : L i = w) (hR : R i = BitVec.ofNat 32 k) :
    (uitofp (F := Ideal) .bf16 (cmpi .eq L R) : s.Idx → EReal) i = if w.toNat = k then 1 else 0 := by
  show ((((IntOp.cmpi .eq (L i) (R i)).toNat : ℝ)) : EReal) = _
  rw [hL, hR]
  have hk32 : k % 2 ^ 32 = k := Nat.mod_eq_of_lt (by omega)
  by_cases h : w.toNat = k
  · have hwk : w = BitVec.ofNat 32 k := BitVec.eq_of_toNat_eq (by rw [BitVec.toNat_ofNat, hk32]; exact h)
    rw [if_pos h, StableHlo.Predicate.cmpi_eq_iff.2 hwk]
    simp
  · have hne : ¬ IntOp.cmpi .eq w (BitVec.ofNat 32 k) = 1#1 := fun hc => h (by
      rw [StableHlo.Predicate.cmpi_eq_iff.1 hc, BitVec.toNat_ofNat, hk32])
    rw [if_neg h, eq_zero_of_ne_one hne]
    simp

/-- The one-hot table the kernel reads: row n·81 + a has its 1 in the column of cell a's n-th neighbour. -/
theorem V_onehot (c : Dev nD)
    (hr : Cert.Gnn.InRange (m ((c : Thread nD τ).loc main_arg1) : IVec S81x20 32)) (n : Fin 20) (a j : Fin 81) :
    (V m c main_call0_v16 : S1620x81.Idx → EReal) (ix2 ⟨n.val * 81 + a.val, by omega⟩ j)
      = if Cert.Gnn.eOf (m ((c : Thread nD τ).loc main_arg1) : IVec S81x20 32) a n = j then (1 : EReal) else 0 := by
  have e : (V m c main_call0_v16 : S1620x81.Idx → EReal)
      = shapeCast S1620x81 (uitofp (F := Ideal) .bf16 (cmpi .eq
          (broadcastInDim S20x81x81 ![0, 1, 2] bcast_S20x81x1_S20x81x81_0_1_2
            (broadcastInDim S20x81x1 ![0, 1] bcast_S20x81_S20x81x1_0_1
              (transpose S20x81 [1, 0]
                (minsi (broadcastInDim S81x20 ![] bcast_S_S81x20 (constantI S_ 32 80#32))
                  (maxsi (broadcastInDim S81x20 ![] bcast_S_S81x20 (constantI S_ 32 0#32))
                    (m ((c : Thread nD τ).loc main_arg1) : IVec S81x20 32)))
                transposes_S81x20_S20x81_1_0)))
          (broadcastInDim S20x81x81 ![0, 1, 2] bcast_S1x1x81_S20x81x81_0_1_2
            (broadcastInDim S1x1x81 ![2] bcast_S81_S1x1x81_2 (iotaInDim S81 32 0)))))
        shapeCasts_S20x81x81_S1620x81 := by
    dsimp only [Gen.V, Gen.hostOps0]
    after_results
    rfl
  rw [e]
  refine (reshape_1620x81 _ _ n a j _).trans ?_
  refine (onehot_entry _ _ (ix3 n a j) ((m ((c : Thread nD τ).loc main_arg1) : IVec S81x20 32) (ix2 a n)) j.val j.isLt ?_ ?_).trans ?_
  · -- the left operand: the clipped table, transposed and repeated; under the range hypothesis the clip does nothing
    refine (bcast_left _ _ _ n a j).trans ((transpose_ix2_apply _ _ n a).trans ?_)
    exact clip_id _ (hr a n)
  · -- the right operand: the column number as a word
    exact bcast_right _ _ _ n a j
  · -- the word's value is j exactly when the neighbour, as a cell number, is j
    have hiff : Cert.Gnn.eOf (m ((c : Thread nD τ).loc main_arg1) : IVec S81x20 32) a n = j
        ↔ ((m ((c : Thread nD τ).loc main_arg1) : IVec S81x20 32) (ix2 a n)).toNat = j.val := by
      rw [Fin.ext_iff]
      show _ % 81 = j.val ↔ _
      rw [Nat.mod_eq_of_lt (hr a n)]
    exact (if_congr hiff rfl rfl).symm

end Cert.KernelIdeal.HostVal

end
-- ==== Proof.KBridge.lean ====
/-
  On block t of the grid the block function is the result at the block's rows.

  Block t holds the batch rows 32·t … 32·t + 31 of x. With the block's inputs read as the host left them (the halves of
  W1, W2, the biases as [1, 1, 96], and the one-hot table whose row n·81 + a marks e a n), each piece of the block
  function is the matching piece of G: the two projections term by term, and the one-hot row against the 81
  neighbour projections is the projection of the marked cell, since Σ_j (if k = j then 1 else 0) · v j = v k
  (0 · v = 0 and 1 · v = v hold for every extended real, so no finiteness is needed).
-/
import proofs.«401384_j17746804867119_3_alg».proof.Proof.Spec
import proofs.«401384_j17746804867119_3_alg».proof.Proof.KSpec
import Mathlib.Algebra.BigOperators.Group.Finset.Basic

noncomputable section

open scoped BigOperators

namespace Cert.Gnn

open Idealize.ShloMosaic Idealize.ShloMosaic.ValueIdx

/-- Row 32·t + bl of x: batch row bl of block t. -/
def blockRow (t : Fin 16) (bl : Fin 32) : Fin 512 := ⟨32 * t.val + bl.val, by omega⟩

/-- A one-hot row against a vector picks the marked entry. -/
theorem onehot_pick (k : Fin 81) (v : Fin 81 → EReal) :
    ∑ j : Fin 81, (if k = j then (1 : EReal) else 0) * v j = v k := by
  rw [Finset.sum_eq_single k]
  · rw [if_pos rfl, one_mul]
  · intro j _ hj
    rw [if_neg (Ne.symm hj), zero_mul]
  · intro hk
    exact absurd (Finset.mem_univ k) hk

/-- The block function on block t is G at the block's rows. -/
theorem Kblk_eq_G (x : (⟨3, ![512, 81, 96]⟩ : Shape).Idx → EReal) (e : Fin 81 → Fin 20 → Fin 81)
    (W1 : (⟨2, ![192, 96]⟩ : Shape).Idx → EReal) (b1 : (⟨1, ![96]⟩ : Shape).Idx → EReal)
    (W2 : (⟨2, ![96, 96]⟩ : Shape).Idx → EReal) (b2 : (⟨1, ![96]⟩ : Shape).Idx → EReal) (t : Fin 16)
    (xb : (⟨3, ![32, 81, 96]⟩ : Shape).Idx → EReal) (oh : (⟨2, ![1620, 81]⟩ : Shape).Idx → EReal)
    (w1s w1n w2 : (⟨2, ![96, 96]⟩ : Shape).Idx → EReal) (b1r b2r : (⟨3, ![1, 1, 96]⟩ : Shape).Idx → EReal)
    (hx : ∀ (bl : Fin 32) (a : Fin 81) (d : Fin 96), xb (ix3 bl a d) = x (ix3 (blockRow t bl) a d))
    (hoh : ∀ (n : Fin 20) (a j : Fin 81), oh (ix2 (ohRow n a) j) = if e a n = j then (1 : EReal) else 0)
    (hs : ∀ d h : Fin 96, w1s (ix2 d h) = W1 (ix2 (lo d) h)) (hn : ∀ d h : Fin 96, w1n (ix2 d h) = W1 (ix2 (hi d) h))
    (hw2 : w2 = W2)
    (hb1 : ∀ h : Fin 96, b1r (ix3 (0 : Fin 1) (0 : Fin 1) h) = b1 (ix1 h))
    (hb2 : ∀ h : Fin 96, b2r (ix3 (0 : Fin 1) (0 : Fin 1) h) = b2 (ix1 h))
    (bl : Fin 32) (a : Fin 81) (o : Fin 96) :
    Kblk xb oh w1s w1n w2 b1r b2r (ix3 bl a o) = G x e W1 b1 W2 b2 (ix3 (blockRow t bl) a o) := by
  -- the cell's own projection, term by term
  have hself : ∀ h : Fin 96, selfB xb w1s a bl h = selfProj x W1 (blockRow t bl) a h := fun h => by
    unfold selfB selfProj
    exact Finset.sum_congr rfl (fun d _ => by rw [hx, hs])
  -- every cell's neighbour projection, term by term
  have hnbr : ∀ (j : Fin 81) (h : Fin 96), nbrB xb w1n j bl h = nbrProj x W1 (blockRow t bl) j h := fun j h => by
    unfold nbrB nbrProj
    exact Finset.sum_congr rfl (fun d _ => by rw [hx, hn])
  -- the one-hot row picks the projection of the n-th neighbour
  have hchunk : ∀ (n : Fin 20) (h : Fin 96), chunkB xb oh w1n n a bl h = nbrProj x W1 (blockRow t bl) (e a n) h :=
    fun n h => by
      unfold chunkB
      rw [← onehot_pick (e a n) (fun j => nbrProj x W1 (blockRow t bl) j h)]
      exact Finset.sum_congr rfl (fun j _ => by rw [hoh, hnbr])
  have hgate : ∀ (n : Fin 20) (h : Fin 96), gateB xb oh w1s w1n b1r n a bl h = gate x e W1 b1 (blockRow t bl) a n h :=
    fun n h => by
      unfold gateB gate
      rw [hself, hchunk, hb1]
  show (∑ h : Fin 96, (∑ n : Fin 20, gateB xb oh w1s w1n b1r n a bl h) * w2 (ix2 h o))
        + ((20 : ℝ) : EReal) * b2r (ix3 (0 : Fin 1) (0 : Fin 1) o)
      = (∑ h : Fin 96, (∑ n : Fin 20, gate x e W1 b1 (blockRow t bl) a n h) * W2 (ix2 h o))
        + ((20 : ℝ) : EReal) * b2 (ix1 o)
  rw [hb2, hw2]
  congr 1
  exact Finset.sum_congr rfl (fun h _ => by rw [Finset.sum_congr rfl (fun n _ => hgate n h)])

end Cert.Gnn

end
-- ==== Proof.KValue.lean ====
/-
  From blocks to the array: after the kernel's run the result array is the specification's `G`.

  The grid has sixteen points. Point t reads batch rows 32·t … 32·t + 31 of x (a block [32, 81, 96]) and, whole, the
  arrays the host operations prepared (the one-hot neighbour table, the two halves of W1, W2, the two biases laid out
  [1, 1, 96]), and writes block t of the result. The body's block function on these inputs is `G` at the block's rows:
  with the block of x read at rows 32·t + bl, the one-hot row n·81 + a marking the n-th neighbour of cell a (this is
  where the range condition on the neighbour table enters), the halves of W1 its rows d and 96 + d, and the biases
  their entries. So every point writes back its own block of the one function `Gm` (`flushed_eq`); batch row r lies in
  the block of point r / 32, so the sixteen blocks cover the array (`cover`), and the array ends holding `Gm` (`final`).
  `run` restates the kernel's run with the result array at `Gm` and the six arguments unchanged.
-/
import proofs.«401384_j17746804867119_3_alg».proof.Proof.Gen.KernelIdeal.Value
import proofs.«401384_j17746804867119_3_alg».proof.Proof.KPayload
import proofs.«401384_j17746804867119_3_alg».proof.Proof.HostVal
import proofs.«401384_j17746804867119_3_alg».proof.Proof.KBridge
import Idealize.ShloMosaic.Lib.Pipeline.Value
import Idealize.ShloMosaic.Lib.ValueIdx

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The grid has sixteen points; point t is block t. -/
abbrev pt (t : Fin cfg0.N) : Fin 16 := ⟨t.val, Nat.lt_of_lt_of_eq t.isLt N_0⟩

/-- The printed index maps over the grid: the x block and the output block of point t are block (t, 0, 0) of their
    arrays; every other window's block is block 0 on each axis, its whole array. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0 :=
  (by decide +kernel : ∀ t : Fin grid0.N, _)

/-- The x block of point t holds the batch rows 32·t … 32·t + 31 of x. -/
theorem xblk_at (c : Dev nD) (t : Fin cfg0.N) (bl : Fin 32) (a : Fin 81) (d : Fin 96) :
    (iblk m c 0 t : Vec Ideal S32x81x96 .f32) (ix3 bl a d)
      = (m ((c : Thread nD τ).loc main_arg0) : S512x81x96.Idx → EReal) (ix3 (Cert.Gnn.blockRow (pt t) bl) a d) := by
  obtain ⟨e0, e1, e2, -⟩ := idx_facts t
  unfold iblk
  rw [View.read_apply]
  show V m c main_arg0 _ = _
  rw [V_main_arg0]
  congr 1
  funext ax
  apply Fin.ext
  match ax with
  | ⟨0, _⟩ => show win0_0.index t (0 : Fin 3) * 32 + 1 * bl.val = 32 * t.val + bl.val; rw [e0]; omega
  | ⟨1, _⟩ => show win0_0.index t (1 : Fin 3) * 81 + 1 * a.val = a.val; rw [e1]; omega
  | ⟨2, _⟩ => show win0_0.index t (2 : Fin 3) * 96 + 1 * d.val = d.val; rw [e2]; omega

/-- Window 1's block at every point is its whole array: the one-hot neighbour table. -/
theorem blk1_eq (c : Dev nD) (t : Fin cfg0.N) :
    (iblk m c 1 t : Vec Ideal S1620x81 .bf16) = (V m c main_call0_v16 : S1620x81.Idx → EReal) := by
  obtain ⟨-, -, -, -, -, -, e0, e1, -⟩ := idx_facts t
  unfold iblk
  funext y
  rw [View.read_apply]
  show V m c main_call0_v16 _ = V m c main_call0_v16 y
  congr 1
  funext ax
  apply Fin.ext
  match ax with
  | ⟨0, _⟩ => show win0_1.index t (0 : Fin 2) * 1620 + 1 * (y 0).val = (y 0).val; rw [e0]; omega
  | ⟨1, _⟩ => show win0_1.index t (1 : Fin 2) * 81 + 1 * (y 1).val = (y 1).val; rw [e1]; omega

/-- Window 2's block at every point is its whole array: the upper half of W1. -/
theorem blk2_eq (c : Dev nD) (t : Fin cfg0.N) :
    (iblk m c 2 t : Vec Ideal S96x96 .bf16) = (V m c main_call0_v1 : S96x96.Idx → EReal) := by
  obtain ⟨-, -, -, -, -, -, -, -, e0, e1, -⟩ := idx_facts t
  unfold iblk
  funext y
  rw [View.read_apply]
  show V m c main_call0_v1 _ = V m c main_call0_v1 y
  congr 1
  funext ax
  apply Fin.ext
  match ax with
  | ⟨0, _⟩ => show win0_2.index t (0 : Fin 2) * 96 + 1 * (y 0).val = (y 0).val; rw [e0]; omega
  | ⟨1, _⟩ => show win0_2.index t (1 : Fin 2) * 96 + 1 * (y 1).val = (y 1).val; rw [e1]; omega

/-- Window 3's block at every point is its whole array: the lower half of W1. -/
theorem blk3_eq (c : Dev nD) (t : Fin cfg0.N) :
    (iblk m c 3 t : Vec Ideal S96x96 .bf16) = (V m c main_call0_v3 : S96x96.Idx → EReal) := by
  obtain ⟨-, -, -, -, -, -, -, -, -, -, e0, e1, -⟩ := idx_facts t
  unfold iblk
  funext y
  rw [View.read_apply]
  show V m c main_call0_v3 _ = V m c main_call0_v3 y
  congr 1
  funext ax
  apply Fin.ext
  match ax with
  | ⟨0, _⟩ => show win0_3.index t (0 : Fin 2) * 96 + 1 * (y 0).val = (y 0).val; rw [e0]; omega
  | ⟨1, _⟩ => show win0_3.index t (1 : Fin 2) * 96 + 1 * (y 1).val = (y 1).val; rw [e1]; omega

/-- Window 4's block at every point is its whole array: W2. -/
theorem blk4_eq (c : Dev nD) (t : Fin cfg0.N) :
    (iblk m c 4 t : Vec Ideal S96x96 .bf16) = (V m c main_call0_v4 : S96x96.Idx → EReal) := by
  obtain ⟨-, -, -, -, -, -, -, -, -, -, -, -, e0, e1, -⟩ := idx_facts t
  unfold iblk
  funext y
  rw [View.read_apply]
  show V m c main_call0_v4 _ = V m c main_call0_v4 y
  congr 1
  funext ax
  apply Fin.ext
  match ax with
  | ⟨0, _⟩ => show win0_4.index t (0 : Fin 2) * 96 + 1 * (y 0).val = (y 0).val; rw [e0]; omega
  | ⟨1, _⟩ => show win0_4.index t (1 : Fin 2) * 96 + 1 * (y 1).val = (y 1).val; rw [e1]; omega

/-- Window 5's block at every point is its whole array: b1 laid out [1, 1, 96]. -/
theorem blk5_eq (c : Dev nD) (t : Fin cfg0.N) :
    (iblk m c 5 t : Vec Ideal S1x1x96 .f32) = (V m c main_call0_v5 : S1x1x96.Idx → EReal) := by
  obtain ⟨-, -, -, -, -, -, -, -, -, -, -, -, -, -, e0, e1, e2, -⟩ := idx_facts t
  unfold iblk
  funext y
  rw [View.read_apply]
  show V m c main_call0_v5 _ = V m c main_call0_v5 y
  congr 1
  funext ax
  apply Fin.ext
  match ax with
  | ⟨0, _⟩ => show win0_5.index t (0 : Fin 3) * 1 + 1 * (y 0).val = (y 0).val; rw [e0]; omega
  | ⟨1, _⟩ => show win0_5.index t (1 : Fin 3) * 1 + 1 * (y 1).val = (y 1).val; rw [e1]; omega
  | ⟨2, _⟩ => show win0_5.index t (2 : Fin 3) * 96 + 1 * (y 2).val = (y 2).val; rw [e2]; omega

/-- Window 6's block at every point is its whole array: b2 laid out [1, 1, 96]. -/
theorem blk6_eq (c : Dev nD) (t : Fin cfg0.N) :
    (iblk m c 6 t : Vec Ideal S1x1x96 .f32) = (V m c main_call0_v6 : S1x1x96.Idx → EReal) := by
  obtain ⟨-, -, -, -, -, -, -, -, -, -, -, -, -, -, -, -, -, e0, e1, e2⟩ := idx_facts t
  unfold iblk
  funext y
  rw [View.read_apply]
  show V m c main_call0_v6 _ = V m c main_call0_v6 y
  congr 1
  funext ax
  apply Fin.ext
  match ax with
  | ⟨0, _⟩ => show win0_6.index t (0 : Fin 3) * 1 + 1 * (y 0).val = (y 0).val; rw [e0]; omega
  | ⟨1, _⟩ => show win0_6.index t (1 : Fin 3) * 1 + 1 * (y 1).val = (y 1).val; rw [e1]; omega
  | ⟨2, _⟩ => show win0_6.index t (2 : Fin 3) * 96 + 1 * (y 2).val = (y 2).val; rw [e2]; omega

/-- The result array as one function of the six arguments: the specification's `G` at the neighbour table read as
    cell numbers. -/
abbrev Gm (c : Dev nD) : S512x81x96.Idx → EReal :=
  Cert.Gnn.G (m ((c : Thread nD τ).loc main_arg0) : S512x81x96.Idx → EReal)
    (Cert.Gnn.eOf (m ((c : Thread nD τ).loc main_arg1) : IVec S81x20 32))
    (m ((c : Thread nD τ).loc main_arg2) : S192x96.Idx → EReal) (m ((c : Thread nD τ).loc main_arg3) : S96.Idx → EReal)
    (m ((c : Thread nD τ).loc main_arg4) : S96x96.Idx → EReal) (m ((c : Thread nD τ).loc main_arg5) : S96.Idx → EReal)

/-- WHAT POINT t WRITES BACK is block t of `Gm`: the body's block function on the blocks it reads is `G` at the block's
    32 batch rows. -/
theorem flushed_eq (c : Dev nD) (hr : Cert.Gnn.InRange (m ((c : Thread nD τ).loc main_arg1) : IVec S81x20 32))
    (t : Fin cfg0.N) :
    (dats m 0 c).flushed 7 t = ((cfg0.win 7).blk t).view.read (Elt Ideal) (Gm m c) := by
  rw [Value.flushed7, Payload.out0_7_eq, blk1_eq, blk2_eq, blk3_eq, blk4_eq, blk5_eq, blk6_eq]
  obtain ⟨-, -, -, e0, e1, e2, -⟩ := idx_facts t
  funext y
  obtain ⟨bl, a, o, rfl⟩ : ∃ (bl : Fin 32) (a : Fin 81) (o : Fin 96), y = ix3 bl a o := ⟨y 0, y 1, y 2, eq_ix3 y⟩
  rw [View.read_apply]
  have hemb : ((cfg0.win 7).blk t).view.emb (ix3 bl a o) = ix3 (Cert.Gnn.blockRow (pt t) bl) a o := by
    funext ax
    apply Fin.ext
    match ax with
    | ⟨0, _⟩ => show win0_7.index t (0 : Fin 3) * 32 + 1 * bl.val = 32 * t.val + bl.val; rw [e0]; omega
    | ⟨1, _⟩ => show win0_7.index t (1 : Fin 3) * 81 + 1 * a.val = a.val; rw [e1]; omega
    | ⟨2, _⟩ => show win0_7.index t (2 : Fin 3) * 96 + 1 * o.val = o.val; rw [e2]; omega
  rw [hemb]
  exact Cert.Gnn.Kblk_eq_G _ _ _ _ _ _ (pt t) _ _ _ _ _ _ _ (xblk_at m c t)
    (fun n a j => HostVal.V_onehot m c hr n a j) (HostVal.V_w1s m c) (HostVal.V_w1n m c) (HostVal.V_w2 m c)
    (HostVal.V_b1 m c) (HostVal.V_b2 m c) bl a o

/-- An index of the result array is in point t's block iff each coordinate is in the block's range on its axis. -/
theorem mem_blk (t : Fin cfg0.N) (i : S512x81x96.Idx) :
    i ∈ ((cfg0.win 7).blk t).view.set ↔ ∀ a : Fin 3, win0_7.index t a * S32x81x96.size a ≤ (i a).val
      ∧ (i a).val < win0_7.index t a * S32x81x96.size a + S32x81x96.size a := by
  show i ∈ ((View.whole main_v0).slice (win0_7.rect t)).set ↔ _
  rw [View.set_slice_whole, Rect.mem_set_unit]
  exact Iff.rfl

/-- The sixteen blocks cover the array: batch row r is in the block of point r / 32. -/
theorem cover (i : S512x81x96.Idx) :
    ∃ t : Fin cfg0.N, (cfg0.win 7).flush t = true ∧ i ∈ ((cfg0.win 7).blk t).view.set := by
  have hi0 : (i 0).val < 512 := (i 0).isLt
  have hi1 : (i 1).val < 81 := (i 1).isLt
  have hi2 : (i 2).val < 96 := (i 2).isLt
  obtain ⟨t, ht⟩ : ∃ t : Fin cfg0.N, t.val = (i 0).val / 32 :=
    ⟨⟨(i 0).val / 32, Nat.lt_of_lt_of_eq (by omega) N_0.symm⟩, rfl⟩
  obtain ⟨-, -, -, e0, e1, e2, -⟩ := idx_facts t
  refine ⟨t, flush0_7 t, ?_⟩
  rw [mem_blk]
  intro a
  match a with
  | ⟨0, _⟩ =>
    show win0_7.index t (0 : Fin 3) * 32 ≤ (i 0).val ∧ (i 0).val < win0_7.index t (0 : Fin 3) * 32 + 32
    rw [e0]; omega
  | ⟨1, _⟩ =>
    show win0_7.index t (1 : Fin 3) * 81 ≤ (i 1).val ∧ (i 1).val < win0_7.index t (1 : Fin 3) * 81 + 81
    rw [e1]; omega
  | ⟨2, _⟩ =>
    show win0_7.index t (2 : Fin 3) * 96 ≤ (i 2).val ∧ (i 2).val < win0_7.index t (2 : Fin 3) * 96 + 96
    rw [e2]; omega

/-- THE RESULT ARRAY after the run is `Gm`: every point writes its block of `Gm`, and the blocks cover the array. -/
theorem final (c : Dev nD) (hr : Cert.Gnn.InRange (m ((c : Thread nD τ).loc main_arg1) : IVec S81x20 32)) :
    (dats m 0 c).arrAt 7 cfg0.N = Gm m c :=
  (dats m 0 c).arrAt_eq_of_cover 7 (Gm m c) (fun t _ => flushed_eq m c hr t) cover

/-- The run, read: the result array at `Gm`, the six arguments unchanged. -/
theorem run (hr : ∀ c : Dev nD, Cert.Gnn.InRange (m ((c : Thread nD τ).loc main_arg1) : IVec S81x20 32)) :
    θ_run defs (onTc (τ := τ) (main (F := Ideal))) ⟨m, fun _ => 0, ρ⟩ fun r => ∀ c : Dev nD,
      r.2.mem ((c : Thread nD τ).loc main_v0) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hr c)), (h c).2⟩) (Value.run_blocks m ρ)

end Cert.KernelIdeal.KValue

end
-- ==== Proof.lean ====
/-
  A relational message-passing layer: the kernel and its reference compute the same function over the extended reals.

  For a batch row b, a cell a and an output column o the reference forms, for each of the twenty neighbours n of a, the
  pair row (x[b,a,·] followed by x[b, e a n,·]), sends it through W1 and b1, clips at zero, sends it through W2 and b2,
  and sums the twenty results. The kernel uses that the first layer is linear in the pair row: it projects every cell
  once through the upper half of W1 (as itself) and once through the lower half (as a neighbour), picks each
  neighbour's projection with a one-hot row of the neighbour table, adds the twenty clipped activations FIRST and
  multiplies by W2 once, adding twenty times b2. The two agree because a sum over 192 rows of W1 splits into its two
  halves, a one-hot row times a column is the marked entry, a product distributes over a sum of NONNEGATIVE extended
  reals (the activations are clipped at zero), and twenty copies of b2 are 20 · b2; none of these needs the inputs to be
  finite. What the equality does need is that every entry of the neighbour table is a cell number, 0 ≤ e < 81: the
  kernel clips the table to that range while indexing with a negative entry counts from the end, so the two differ
  outside it. The precondition states the range, and only that part of it is used.

  Spec.lean states the function in both forms (G: neighbours summed first; R: neighbour by neighbour) and Algebra.lean
  proves R = G. The kernel side: KSpec.lean is one grid step's output block as a function of the blocks it reads,
  KLayout.lean and KDots.lean read the body's re-layings and matrix products at an index, KPayload.lean shows the two
  stored halves are that block function, HostVal.lean reads the arrays the host prepares (the halves of W1, the
  reshaped biases, the one-hot table), KBridge.lean shows the block function on block t is G at the block's rows,
  and KValue.lean puts the sixteen blocks together. The reference side: RefValue.lean reads the reference's last
  stage at an index as R. PreDecode.lean reads the range of the neighbour table off the precondition.
-/
import proofs.«401384_j17746804867119_3_alg».proof.Defs
import proofs.«401384_j17746804867119_3_alg».proof.Proof.Gen.Kernel
import proofs.«401384_j17746804867119_3_alg».proof.Proof.Gen.Kernel.Skeleton
import proofs.«401384_j17746804867119_3_alg».proof.Proof.Gen.Kernel.Launch
import proofs.«401384_j17746804867119_3_alg».proof.Proof.Gen.Kernel.Points
import proofs.«401384_j17746804867119_3_alg».proof.Proof.Gen.Kernel.Frame
import proofs.«401384_j17746804867119_3_alg».proof.Proof.Gen.KernelIdeal
import proofs.«401384_j17746804867119_3_alg».proof.Proof.Gen.KernelIdeal.Skeleton
import proofs.«401384_j17746804867119_3_alg».proof.Proof.Gen.KernelIdeal.Launch
import proofs.«401384_j17746804867119_3_alg».proof.Proof.Gen.KernelIdeal.Points
import proofs.«401384_j17746804867119_3_alg».proof.Proof.Gen.KernelIdeal.Frame
import proofs.«401384_j17746804867119_3_alg».proof.Proof.Gen.ReferenceIdeal
import proofs.«401384_j17746804867119_3_alg».proof.Proof.Gen.Pre_finite_inputs
import proofs.«401384_j17746804867119_3_alg».proof.Proof.Gen.KernelIdeal.Value
import proofs.«401384_j17746804867119_3_alg».proof.Proof.Gen.ReferenceIdeal.Run
import proofs.«401384_j17746804867119_3_alg».proof.Proof.Gen.ReferenceIdeal.Read
import proofs.«401384_j17746804867119_3_alg».proof.Proof.Algebra
import proofs.«401384_j17746804867119_3_alg».proof.Proof.PreDecode
import proofs.«401384_j17746804867119_3_alg».proof.Proof.RefValue
import proofs.«401384_j17746804867119_3_alg».proof.Proof.KValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with the neighbour table in range, both programs end with the array
    G of the arguments: the kernel by its sixteen blocks, the reference by its last stage read as R, and R = G. -/
theorem algebraic : Cert.algebraic_KernelIdeal_ReferenceIdeal := by
  intro m ρ m' ρ' hpre hagree
  have hr : ∀ c : Dev Cert.KernelIdeal.nD, Cert.Gnn.InRange
      (m ((c : Thread Cert.KernelIdeal.nD Cert.KernelIdeal.τ).loc Cert.KernelIdeal.main_arg1)) :=
    fun c => Cert.Pre_finite_inputs.Decode.inRange_of_pre _ _ _ _ _ _ (hpre c)
  refine ⟨fun c => Cert.KernelIdeal.KValue.Gm m c, Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v19_eq _ _ _ _ _ _).trans
    ((Cert.ReferenceIdeal.RefValue.ref_eq _ _ _ _ _ _ (hr c)).trans (Cert.Gnn.R_eq_G _ _ _ _ _ _))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
